-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_scale" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x20000x256 : Shape := ⟨3, ![1, 20000, 256]⟩
abbrev S2x320000 : Shape := ⟨2, ![2, 320000]⟩
abbrev S_ : Shape := ⟨0, ![]⟩

class Facts : Prop where
  bcast_S_S1x20000x256 : S_.BroadcastsInDim S1x20000x256 (![] : Fin 0 → Fin S1x20000x256.rank)
  reducesTo_S1x20000x256_S_d0_1_2 : S1x20000x256.ReducesTo [0, 1, 2] S_
  h_S_ : 0 < S_.numel
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg3 : IVec S2x320000 32) (main_v13 : IVec S_ 1) (main_v15 : IVec S2x320000 1) (main_c_5 : IVec S_ 1) : IVec S_ 1 :=
  let main_v16 : IVec S_ 1 := (fun x v => Host.reduce IntOp.andi x v reducesTo_S2x320000_S_d0_1 h_S_) main_v15 main_c_5
  let main_v17 : IVec S_ 1 := andi main_v13 main_v16
  let main_c_6 : IVec S_ 32 := constantI S_ 32 20000#32
  let main_v18 : IVec S2x320000 32 := broadcastInDim S2x320000 ![] bcast_S_S2x320000 main_c_6
  let main_v19 : IVec S2x320000 1 := cmpi .slt main_arg3 main_v18
  let main_c_7 : IVec S_ 1 := constantI S_ 1 1#1
  let main_v20 : IVec S_ 1 := (fun x v => Host.reduce IntOp.andi x v reducesTo_S2x320000_S_d0_1 h_S_) main_v19 main_c_7
  let main_v21 : IVec S_ 1 := andi main_v17 main_v20
  main_v21

def fn {F : FTy → Type} [FloatOps F] (main_arg0 : FVec F S1x20000x256 .f32) (main_arg1 : FVec F S1x20000x256 .f32) (main_arg2 : FVec F S1x20000x256 .f32) (main_arg3 : IVec S2x320000 32) : IVec S_ 1 :=
  let main_v0 : FVec F S1x20000x256 .f32 := Host.absf main_arg0
  let main_cst : FVec F S_ .f32 := constant S_ .f32 0x7F800000#32
  let main_v1 : FVec F S1x20000x256 .f32 := broadcastInDim S1x20000x256 ![] bcast_S_S1x20000x256 main_cst
  let main_v2 : IVec S1x20000x256 1 := cmpf .olt main_v0 main_v1
  let main_c : IVec S_ 1 := constantI S_ 1 1#1
  let main_v3 : IVec S_ 1 := (fun x v => Host.reduce IntOp.andi x v reducesTo_S1x20000x256_S_d0_1_2 h_S_) main_v2 main_c
  let main_v4 : FVec F S1x20000x256 .f32 := Host.absf main_arg1
  let main_cst_0 : FVec F S_ .f32 := constant S_ .f32 0x7F800000#32
  let main_v5 : FVec F S1x20000x256 .f32 := broadcastInDim S1x20000x256 ![] bcast_S_S1x20000x256 main_cst_0
  let main_v6 : IVec S1x20000x256 1 := cmpf .olt main_v4 main_v5
  let main_c_1 : IVec S_ 1 := constantI S_ 1 1#1
  let main_v7 : IVec S_ 1 := (fun x v => Host.reduce IntOp.andi x v reducesTo_S1x20000x256_S_d0_1_2 h_S_) main_v6 main_c_1
  let main_v8 : IVec S_ 1 := andi main_v3 main_v7
  let main_v9 : FVec F S1x20000x256 .f32 := Host.absf main_arg2
  let main_cst_2 : FVec F S_ .f32 := constant S_ .f32 0x7F800000#32
  let main_v10 : FVec F S1x20000x256 .f32 := broadcastInDim S1x20000x256 ![] bcast_S_S1x20000x256 main_cst_2
  let main_v11 : IVec S1x20000x256 1 := cmpf .olt main_v9 main_v10
  let main_c_3 : IVec S_ 1 := constantI S_ 1 1#1
  let main_v12 : IVec S_ 1 := (fun x v => Host.reduce IntOp.andi x v reducesTo_S1x20000x256_S_d0_1_2 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg3 main_v14
  let main_c_5 : IVec S_ 1 := constantI S_ 1 1#1
  fn_part1 (F := F) main_arg3 main_v13 main_v15 main_c_5
-- ==== Kernel.lean ====
abbrev S1x20000x256 : Shape := ⟨3, ![1, 20000, 256]⟩
abbrev S2x320000 : Shape := ⟨2, ![2, 320000]⟩
abbrev S20000x8x32 : Shape := ⟨3, ![20000, 8, 32]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x8x32 : Shape := ⟨3, ![320000, 8, 32]⟩
abbrev S320000x8 : Shape := ⟨2, ![320000, 8]⟩
abbrev S1000x8x32 : Shape := ⟨3, ![1000, 8, 32]⟩
abbrev S1000x8 : Shape := ⟨2, ![1000, 8]⟩
abbrev S1000x8x1 : Shape := ⟨3, ![1000, 8, 1]⟩
abbrev S20000x8 : Shape := ⟨2, ![20000, 8]⟩
abbrev S20000x8x1 : Shape := ⟨3, ![20000, 8, 1]⟩

abbrev nBuf : Space → Nat
  | .hbm => 97
  | .vmem => 10
  | .smem => 0
  | _ => 0

abbrev bufTy : (tb : Table) → Fin (tcTables nBuf tb) → BufTy
  | .hbm, ⟨0, _⟩ => ⟨S1x20000x256, .f32⟩
  | .hbm, ⟨1, _⟩ => ⟨S1x20000x256, .f32⟩
  | .hbm, ⟨2, _⟩ => ⟨S1x20000x256, .f32⟩
  | .hbm, ⟨3, _⟩ => ⟨S2x320000, .i32⟩
  | .hbm, ⟨4, _⟩ => ⟨S20000x8x32, .f32⟩
  | .hbm, ⟨5, _⟩ => ⟨S20000x8x32, .f32⟩
  | .hbm, ⟨6, _⟩ => ⟨S20000x8x32, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S1, .i32⟩
  | .hbm, ⟨20, _⟩ => ⟨S_, .i32⟩
  | .hbm, ⟨21, _⟩ => ⟨S320000x1, .i32⟩
  | .hbm, ⟨22, _⟩ => ⟨S320000x1, .i1⟩
  | .hbm, ⟨23, _⟩ => ⟨S1x1, .i32⟩
  | .hbm, ⟨24, _⟩ => ⟨S320000x1, .i32⟩
  | .hbm, ⟨25, _⟩ => ⟨S320000x1, .i1⟩
  | .hbm, ⟨26, _⟩ => ⟨S320000x1, .i1⟩
  | .hbm, ⟨27, _⟩ => ⟨S_, .i1⟩
  | .hbm, ⟨28, _⟩ => ⟨S320000, .i1⟩
  | .hbm, ⟨29, _⟩ => ⟨S320000x8x32, .f32⟩
  | .hbm, ⟨30, _⟩ => ⟨S320000x8x32, .i1⟩
  | .hbm, ⟨31, _⟩ => ⟨S_, .f32⟩
  | .hbm, ⟨32, _⟩ => ⟨S320000x8x32, .f32⟩
  | .hbm, ⟨33, _⟩ => ⟨S320000x8x32, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S1, .i32⟩
  | .hbm, ⟨43, _⟩ => ⟨S_, .i32⟩
  | .hbm, ⟨44, _⟩ => ⟨S320000x1, .i32⟩
  | .hbm, ⟨45, _⟩ => ⟨S320000x1, .i1⟩
  | .hbm, ⟨46, _⟩ => ⟨S1x1, .i32⟩
  | .hbm, ⟨47, _⟩ => ⟨S320000x1, .i32⟩
  | .hbm, ⟨48, _⟩ => ⟨S320000x1, .i1⟩
  | .hbm, ⟨49, _⟩ => ⟨S320000x1, .i1⟩
  | .hbm, ⟨50, _⟩ => ⟨S_, .i1⟩
  | .hbm, ⟨51, _⟩ => ⟨S320000, .i1⟩
  | .hbm, ⟨52, _⟩ => ⟨S320000x8x32, .f32⟩
  | .hbm, ⟨53, _⟩ => ⟨S320000x8x32, .i1⟩
  | .hbm, ⟨54, _⟩ => ⟨S_, .f32⟩
  | .hbm, ⟨55, _⟩ => ⟨S320000x8x32, .f32⟩
  | .hbm, ⟨56, _⟩ => ⟨S320000x8x32, .f32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S_, .i32⟩
  | .hbm, ⟨61, _⟩ => ⟨S320000, .i32⟩
  | .hbm, ⟨62, _⟩ => ⟨S320000, .i32⟩
  | .hbm, ⟨63, _⟩ => ⟨S320000, .i32⟩
  | .hbm, ⟨64, _⟩ => ⟨S320000x1, .i32⟩
  | .hbm, ⟨65, _⟩ => ⟨S1, .i32⟩
  | .hbm, ⟨66, _⟩ => ⟨S_, .i32⟩
  | .hbm, ⟨67, _⟩ => ⟨S320000x1, .i32⟩
  | .hbm, ⟨68, _⟩ => ⟨S320000x1, .i1⟩
  | .hbm, ⟨69, _⟩ => ⟨S1x1, .i32⟩
  | .hbm, ⟨70, _⟩ => ⟨S320000x1, .i32⟩
  | .hbm, ⟨71, _⟩ => ⟨S320000x1, .i1⟩
  | .hbm, ⟨72, _⟩ => ⟨S320000x1, .i1⟩
  | .hbm, ⟨73, _⟩ => ⟨S_, .i1⟩
  | .hbm, ⟨74, _⟩ => ⟨S320000, .i1⟩
  | .hbm, ⟨75, _⟩ => ⟨S320000x8x32, .f32⟩
  | .hbm, ⟨76, _⟩ => ⟨S320000x8x32, .i1⟩
  | .hbm, ⟨77, _⟩ => ⟨S_, .f32⟩
  | .hbm, ⟨78, _⟩ => ⟨S320000x8x32, .f32⟩
  | .hbm, ⟨79, _⟩ => ⟨S320000x8x32, .f32⟩
  | .hbm, ⟨80, _⟩ => ⟨S320000x8x32, .f32⟩
  | .hbm, ⟨81, _⟩ => ⟨S320000x8, .f32⟩
  | .hbm, ⟨82, _⟩ => ⟨S_, .f32⟩
  | .hbm, ⟨83, _⟩ => ⟨S20000x8x32, .f32⟩
  | .hbm, ⟨84, _⟩ => ⟨S320000x1, .i32⟩
  | .hbm, ⟨85, _⟩ => ⟨S20000x8x32, .f32⟩
  | .hbm, ⟨86, _⟩ => ⟨S_, .f32⟩
  | .hbm, ⟨87, _⟩ => ⟨S20000x8, .f32⟩
  | .hbm, ⟨88, _⟩ => ⟨S320000x1, .i32⟩
  | .hbm, ⟨89, _⟩ => ⟨S20000x8, .f32⟩
  | .hbm, ⟨90, _⟩ => ⟨S20000x8x1, .f32⟩
  | .hbm, ⟨91, _⟩ => ⟨S_, .f32⟩
  | .hbm, ⟨92, _⟩ => ⟨S20000x8x1, .f32⟩
  | .hbm, ⟨93, _⟩ => ⟨S20000x8x1, .f32⟩
  | .hbm, ⟨94, _⟩ => ⟨S20000x8x32, .f32⟩
  | .hbm, ⟨95, _⟩ => ⟨S20000x8x32, .f32⟩
  | .hbm, ⟨96, _⟩ => ⟨S1x20000x256, .f32⟩
  | .local _ .vmem, ⟨0, _⟩ => ⟨S1000x8x32, .f32⟩
  | .local _ .vmem, ⟨1, _⟩ => ⟨S1000x8x32, .f32⟩
  | .local _ .vmem, ⟨2, _⟩ => ⟨S1000x8x32, .f32⟩
  | .local _ .vmem, ⟨3, _⟩ => ⟨S1000x8x32, .f32⟩
  | .local _ .vmem, ⟨4, _⟩ => ⟨S1000x8x32, .f32⟩
  | .local _ .vmem, ⟨5, _⟩ => ⟨S1000x8x32, .f32⟩
  | .local _ .vmem, ⟨6, _⟩ => ⟨S1000x8x32, .f32⟩
  | .local _ .vmem, ⟨7, _⟩ => ⟨S1000x8x32, .f32⟩
  | .local _ .vmem, ⟨8, _⟩ => ⟨S1000x8, .f32⟩
  | .local _ .vmem, ⟨9, _⟩ => ⟨S1000x8, .f32⟩
  | _, _ => ⟨S1x20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v7 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v8 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v9 : Ref sig .tc := ⟨.hbm, 79, rfl⟩
abbrev main_v10_0 : Ref sig .tc := ⟨.hbm, 80, rfl⟩
abbrev main_v10_1 : Ref sig .tc := ⟨.hbm, 81, rfl⟩
abbrev main_cst : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_cst_0 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_cst_1 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x8x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x20000x256_S20000x8x32 : S1x20000x256.ShapeCasts S20000x8x32
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x8x32_0 : S320000.BroadcastsInDim S320000x8x32 (![0] : Fin 1 → Fin S320000x8x32.rank)
  bcast_S_S320000x8x32 : S_.BroadcastsInDim S320000x8x32 (![] : Fin 0 → Fin S320000x8x32.rank)
  inb_S1000x8x32_S1000x8x32_0_0_0 : ∀ a, (![0, 0, 0] : Fin 3 → Nat) a + S1000x8x32.size a ≤ S1000x8x32.size a
  h_S1000x8x32 : 0 < S1000x8x32.numel
  shapeCasts_S1000x8x32_S1000x8x32 : S1000x8x32.ShapeCasts S1000x8x32
  reduces_S1000x8x32_S1000x8 : S1000x8x32.Reduces [2] S1000x8
  shapeCasts_S1000x8_S1000x8x1 : S1000x8.ShapeCasts S1000x8x1
  broadcasts_S1000x8x1_S1000x8x32 : S1000x8x1.Broadcasts S1000x8x32
  inb_S1000x8_S1000x8_0_0 : ∀ a, (![0, 0] : Fin 2 → Nat) a + S1000x8.size a ≤ S1000x8.size a
  h_S1000x8 : 0 < S1000x8.numel
  bcast_S_S20000x8x32 : S_.BroadcastsInDim S20000x8x32 (![] : Fin 0 → Fin S20000x8x32.rank)
  bcast_S_S20000x8 : S_.BroadcastsInDim S20000x8 (![] : Fin 0 → Fin S20000x8.rank)
  bcast_S20000x8_S20000x8x1_0_1 : S20000x8.BroadcastsInDim S20000x8x1 (![0, 1] : Fin 2 → Fin S20000x8x1.rank)
  bcast_S_S20000x8x1 : S_.BroadcastsInDim S20000x8x1 (![] : Fin 0 → Fin S20000x8x1.rank)
  bcast_S20000x8x1_S20000x8x32_0_1_2 : S20000x8x1.BroadcastsInDim S20000x8x32 (![0, 1, 2] : Fin 3 → Fin S20000x8x32.rank)
  shapeCasts_S20000x8x32_S1x20000x256 : S20000x8x32.ShapeCasts S1x20000x256
  gather_S20000x8x32_S320000x1_S320000x8x32_12_0_n_n_0_1_1832_wf : GatherDims.WF S20000x8x32 S320000x1 S320000x8x32 [1, 2] [0] [] [0] [] 1 ![1, 8, 32]
  scatter_S20000x8x32_S320000x1_S320000x8x32_12_0_0_1_wf : ScatterDims.WF S20000x8x32 S320000x1 S320000x8x32 [1, 2] [0] [0] 1
  scatter_S20000x8_S320000x1_S320000x8_1_0_0_1_wf : ScatterDims.WF S20000x8 S320000x1 S320000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x8x32.size a ≤ S320000x8x32.size a
  hwx0_0 : ∀ i : grid0.Coords, EltTy.bits .f32 = 32 ∨ (Rect.block (s := S320000x8x32) S1000x8x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x8x32.size a ≤ S320000x8x32.size a
  hwx0_1 : ∀ i : grid0.Coords, EltTy.bits .f32 = 32 ∨ (Rect.block (s := S320000x8x32) S1000x8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x8x32.size a ≤ S320000x8x32.size a
  hwx0_2 : ∀ i : grid0.Coords, EltTy.bits .f32 = 32 ∨ (Rect.block (s := S320000x8x32) S1000x8x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x8x32.size a ≤ S320000x8x32.size a
  hwx0_3 : ∀ i : grid0.Coords, EltTy.bits .f32 = 32 ∨ (Rect.block (s := S320000x8x32) S1000x8x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x8.size a ≤ S320000x8.size a
  hwx0_4 : ∀ i : grid0.Coords, EltTy.bits .f32 = 32 ∨ (Rect.block (s := S320000x8) S1000x8.size (cc0_transform_4 i) (hinb0_4 i)).WholeWords (EltTy.packing .f32)

variable [Facts₀]

def gather_S20000x8x32_S320000x1_S320000x8x32_12_0_n_n_0_1_1832 : GatherDims S20000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S20000x8x32_S320000x1_S320000x8x32_12_0_n_n_0_1_1832_wf
def scatter_S20000x8x32_S320000x1_S320000x8x32_12_0_0_1 : ScatterDims S20000x8x32 S320000x1 S320000x8x32 where
  updateWindowDims := [1, 2]
  insertedWindowDims := [0]
  scatterDimsToOperandDims := [0]
  indexVectorDim := 1
  wf := scatter_S20000x8x32_S320000x1_S320000x8x32_12_0_0_1_wf
def scatter_S20000x8_S320000x1_S320000x8_1_0_0_1 : ScatterDims S20000x8 S320000x1 S320000x8 where
  updateWindowDims := [1]
  insertedWindowDims := [0]
  scatterDimsToOperandDims := [0]
  indexVectorDim := 1
  wf := scatter_S20000x8_S320000x1_S320000x8_1_0_0_1_wf

abbrev win0_0 : Pipeline.Window sig grid0 :=
  Pipeline.Window.ofSpec (Memref.whole main_v7) S1000x8x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1000x8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1000x8x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1000x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x20000x256 : Shape := ⟨3, ![1, 20000, 256]⟩
abbrev S2x320000 : Shape := ⟨2, ![2, 320000]⟩
abbrev S20000x8x32 : Shape := ⟨3, ![20000, 8, 32]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x8x32 : Shape := ⟨3, ![320000, 8, 32]⟩
abbrev S320000x8 : Shape := ⟨2, ![320000, 8]⟩
abbrev S320000x8x1 : Shape := ⟨3, ![320000, 8, 1]⟩
abbrev S20000x8x1 : Shape := ⟨3, ![20000, 8, 1]⟩

abbrev nBuf : Space → Nat
  | .hbm => 70
  | .vmem => 0
  | .smem => 0
  | _ => 0

abbrev bufTy : (tb : Table) → Fin (tcTables nBuf tb) → BufTy
  | .hbm, ⟨0, _⟩ => ⟨S1x20000x256, .f32⟩
  | .hbm, ⟨1, _⟩ => ⟨S1x20000x256, .f32⟩
  | .hbm, ⟨2, _⟩ => ⟨S1x20000x256, .f32⟩
  | .hbm, ⟨3, _⟩ => ⟨S2x320000, .i32⟩
  | .hbm, ⟨4, _⟩ => ⟨S20000x8x32, .f32⟩
  | .hbm, ⟨5, _⟩ => ⟨S20000x8x32, .f32⟩
  | .hbm, ⟨6, _⟩ => ⟨S20000x8x32, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S320000x8x32, .f32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x8x32, .f32⟩
  | .hbm, ⟨29, _⟩ => ⟨S320000x8x32, .f32⟩
  | .hbm, ⟨30, _⟩ => ⟨S_, .f32⟩
  | .hbm, ⟨31, _⟩ => ⟨S320000x8, .f32⟩
  | .hbm, ⟨32, _⟩ => ⟨S320000x8x1, .f32⟩
  | .hbm, ⟨33, _⟩ => ⟨S_, .f32⟩
  | .hbm, ⟨34, _⟩ => ⟨S320000x8x1, .f32⟩
  | .hbm, ⟨35, _⟩ => ⟨S320000x8x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S320000x8x1, .f32⟩
  | .hbm, ⟨40, _⟩ => ⟨S320000x8x1, .f32⟩
  | .hbm, ⟨41, _⟩ => ⟨S_, .f32⟩
  | .hbm, ⟨42, _⟩ => ⟨S320000x8x1, .f32⟩
  | .hbm, ⟨43, _⟩ => ⟨S320000x8x1, .f32⟩
  | .hbm, ⟨44, _⟩ => ⟨S320000x8x1, .f32⟩
  | .hbm, ⟨45, _⟩ => ⟨S_, .i32⟩
  | .hbm, ⟨46, _⟩ => ⟨S320000, .i32⟩
  | .hbm, ⟨47, _⟩ => ⟨S320000, .i1⟩
  | .hbm, ⟨48, _⟩ => ⟨S_, .i32⟩
  | .hbm, ⟨49, _⟩ => ⟨S320000, .i32⟩
  | .hbm, ⟨50, _⟩ => ⟨S320000, .i32⟩
  | .hbm, ⟨51, _⟩ => ⟨S320000, .i32⟩
  | .hbm, ⟨52, _⟩ => ⟨S320000x1, .i32⟩
  | .hbm, ⟨53, _⟩ => ⟨S320000x8x32, .f32⟩
  | .hbm, ⟨54, _⟩ => ⟨S320000x8x32, .f32⟩
  | .hbm, ⟨55, _⟩ => ⟨S320000x8x32, .f32⟩
  | .hbm, ⟨56, _⟩ => ⟨S_, .f32⟩
  | .hbm, ⟨57, _⟩ => ⟨S20000x8x32, .f32⟩
  | .hbm, ⟨58, _⟩ => ⟨S320000x1, .i32⟩
  | .hbm, ⟨59, _⟩ => ⟨S20000x8x32, .f32⟩
  | .hbm, ⟨60, _⟩ => ⟨S_, .f32⟩
  | .hbm, ⟨61, _⟩ => ⟨S20000x8x1, .f32⟩
  | .hbm, ⟨62, _⟩ => ⟨S320000x1, .i32⟩
  | .hbm, ⟨63, _⟩ => ⟨S20000x8x1, .f32⟩
  | .hbm, ⟨64, _⟩ => ⟨S_, .f32⟩
  | .hbm, ⟨65, _⟩ => ⟨S20000x8x1, .f32⟩
  | .hbm, ⟨66, _⟩ => ⟨S20000x8x1, .f32⟩
  | .hbm, ⟨67, _⟩ => ⟨S20000x8x32, .f32⟩
  | .hbm, ⟨68, _⟩ => ⟨S20000x8x32, .f32⟩
  | .hbm, ⟨69, _⟩ => ⟨S1x20000x256, .f32⟩
  | _, _ => ⟨S1x20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  shapeCasts_S1x20000x256_S20000x8x32 : S1x20000x256.ShapeCasts S20000x8x32
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x8x32_S320000x8_d2 : S320000x8x32.ReducesTo [2] S320000x8
  h_S_ : 0 < S_.numel
  bcast_S320000x8_S320000x8x1_0_1 : S320000x8.BroadcastsInDim S320000x8x1 (![0, 1] : Fin 2 → Fin S320000x8x1.rank)
  bcast_S_S320000x8x1 : S_.BroadcastsInDim S320000x8x1 (![] : Fin 0 → Fin S320000x8x1.rank)
  bcast_S320000x8x1_S320000x8x32_0_1_2 : S320000x8x1.BroadcastsInDim S320000x8x32 (![0, 1, 2] : Fin 3 → Fin S320000x8x32.rank)
  bcast_S_S20000x8x32 : S_.BroadcastsInDim S20000x8x32 (![] : Fin 0 → Fin S20000x8x32.rank)
  bcast_S_S20000x8x1 : S_.BroadcastsInDim S20000x8x1 (![] : Fin 0 → Fin S20000x8x1.rank)
  bcast_S20000x8x1_S20000x8x32_0_1_2 : S20000x8x1.BroadcastsInDim S20000x8x32 (![0, 1, 2] : Fin 3 → Fin S20000x8x32.rank)
  shapeCasts_S20000x8x32_S1x20000x256 : S20000x8x32.ShapeCasts S1x20000x256
  gather_S20000x8x32_S320000x1_S320000x8x32_12_0_n_n_0_1_1832_wf : GatherDims.WF S20000x8x32 S320000x1 S320000x8x32 [1, 2] [0] [] [0] [] 1 ![1, 8, 32]
  scatter_S20000x8x32_S320000x1_S320000x8x32_12_0_0_1_wf : ScatterDims.WF S20000x8x32 S320000x1 S320000x8x32 [1, 2] [0] [0] 1
  scatter_S20000x8x1_S320000x1_S320000x8x1_12_0_0_1_wf : ScatterDims.WF S20000x8x1 S320000x1 S320000x8x1 [1, 2] [0] [0] 1

variable [Facts₀]

def gather_S20000x8x32_S320000x1_S320000x8x32_12_0_n_n_0_1_1832 : GatherDims S20000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S20000x8x32_S320000x1_S320000x8x32_12_0_n_n_0_1_1832_wf
def scatter_S20000x8x32_S320000x1_S320000x8x32_12_0_0_1 : ScatterDims S20000x8x32 S320000x1 S320000x8x32 where
  updateWindowDims := [1, 2]
  insertedWindowDims := [0]
  scatterDimsToOperandDims := [0]
  indexVectorDim := 1
  wf := scatter_S20000x8x32_S320000x1_S320000x8x32_12_0_0_1_wf
def scatter_S20000x8x1_S320000x1_S320000x8x1_12_0_0_1 : ScatterDims S20000x8x1 S320000x1 S320000x8x1 where
  updateWindowDims := [1, 2]
  insertedWindowDims := [0]
  scatterDimsToOperandDims := [0]
  indexVectorDim := 1
  wf := scatter_S20000x8x1_S320000x1_S320000x8x1_12_0_0_1_wf

class Facts : Prop extends Facts₀ where

variable [Facts]
-- ==== Proof.LibAllOnes.lean ====
/-
  A one-bit mask that is all ones. A host reduction by `and` from the constant 1 over an array of one-bit words
  every one of which is 1 is 1 at every result index (the converse of reading such a reduction back); a select on an
  all-ones mask keeps its first operand; and the signed comparisons that say a 32-bit word lies in [0, n): such a
  word is not negative, so an index normalisation that adds the extent to negative words leaves it alone, and it is
  at most n - 1.
-/
import Idealize.ShloMosaic.Lib.ReduceAll
import Idealize.ShloMosaic.Lib.ValueIdx

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    rw [List.foldl_cons]
    exact foldl_andi_of_all f l _ (andi_eq_one.2 ⟨h, hl a (List.mem_cons_self ..)⟩) fun n hn => hl n (List.mem_cons_of_mem _ hn)

/-- A word that is not negative is not below zero: the normalisation's condition is not 1. -/
theorem slt_zero_ne_one {w : BitVec 32} (h0 : cmpi .sge w 0#32 = 1#1) : ¬ cmpi .slt w 0#32 = 1#1 := by
  rw [cmpi_sge] at h0
  rw [cmpi_slt]
  omega

/-- A word below `n` is at most `hi` when `hi` is `n - 1`. -/
theorem sle_pred_of_slt {w n hi : BitVec 32} (hhi : hi.toInt + 1 = n.toInt) (hn : cmpi .slt w n = 1#1) :
    cmpi .sle w hi = 1#1 := by
  rw [cmpi_slt] at hn
  rw [cmpi_sle]
  omega

end IntOp

namespace Scalar

/-- jnp's index normalisation (a negative index is increased by the extent) leaves a word in [0, n) alone. -/
theorem select_wrap_of_nonneg {w n : BitVec 32} (h0 : IntOp.cmpi .sge w 0#32 = 1#1) :
    Scalar.select (IntOp.cmpi .slt w 0#32) (IntOp.addi w n) w = w :=
  if_neg (IntOp.slt_zero_ne_one h0)

end Scalar

namespace Host

variable {s t u : Shape} {axes : List (Fin s.rank)}

/-- `jnp.all` of an all-ones array: a reduce by `and` from an initial 1 over one-bit words that are all 1 is 1 at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun n _ => hx n

end Host

/-- A select whose one-bit mask is 1 at an index keeps its first operand there. -/
theorem select_apply_of_one {s : Shape} {α : Type} (c : IVec s 1) (a b : s.Idx → α) (i : s.Idx) (h : c i = 1#1) :
    select c a b i = a i := by
  show Scalar.select (c i) (a i) (b i) = a i
  rw [h]
  exact ValueIdx.select_one _ _

end Idealize.ShloMosaic
-- ==== Proof.EdgeTake.lean ====
/-
  Taking rows with in-range indices. The kernel takes the rows of a table `[20000, 8, 32]` that a list of 320000 row
  numbers names: a negative number is first increased by 20000, a number still outside `[0, 19999]` makes its row a
  fill value, and the gather itself clamps. When every number of the list lies in `[0, 20000)` nothing is increased and
  nothing is filled: the taken rows are the plain gather at the list itself.
-/
import proofs.«423369_j31327491457426_2_alg».proof.Proof.Gen.KernelIdeal
import proofs.«423369_j31327491457426_2_alg».proof.Proof.LibAllOnes
import Idealize.ShloMosaic.Lib.ValueIdx

noncomputable section

namespace Cert.KernelIdeal.EdgeValue

open Idealize.ShloMosaic Idealize.ShloMosaic.ValueIdx
open Cert.KernelIdeal Cert.KernelIdeal.Gen

/-- A table `[1, 20000, 256]` seen as rows of 8 heads of 32 lanes. -/
def rowsOf (x : FVec Ideal S1x20000x256 .f32) : FVec Ideal S20000x8x32 .f32 :=
  shapeCast S20000x8x32 x shapeCasts_S1x20000x256_S20000x8x32

/-- The sources of the edges: row 0 of the edge list. -/
def sources (e : IVec S2x320000 32) : IVec S320000 32 :=
  shapeCast S320000 (extractStridedSlice S1x320000 ![0, 0] e slices_S2x320000_S1x320000_0_0) shapeCasts_S1x320000_S320000

/-- The destinations of the edges: row 1 of the edge list. -/
def dests (e : IVec S2x320000 32) : IVec S320000 32 :=
  shapeCast S320000 (extractStridedSlice S1x320000 ![1, 0] e slices_S2x320000_S1x320000_1_0) shapeCasts_S1x320000_S320000

/-- The list of row numbers after the normalisation of negative ones, as a column of start indices. -/
def startIdx (src : IVec S320000 32) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 20000#32))) src)

/-- Per list entry, whether its normalised number lies in `[0, 19999]`. -/
def inRange (src : IVec S320000 32) : IVec S320000 1 :=
  Host.reduce IntOp.andi
    (andi (cmpi .sge (startIdx src) (broadcastInDim S320000x1 ![] bcast_S_S320000x1 (constantI S_ 32 0#32)))
      (cmpi .sle (startIdx src) (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- The rows the kernel takes: the gathered row where the number is in range, the fill value elsewhere. -/
def takeRows (x : FVec Ideal S20000x8x32 .f32) (src : IVec S320000 32) : FVec Ideal S320000x8x32 .f32 :=
  select (broadcastInDim S320000x8x32 ![0] bcast_S320000_S320000x8x32_0 (inRange src))
    (Host.gather gather_S20000x8x32_S320000x1_S320000x8x32_12_0_n_n_0_1_1832 x (startIdx src))
    (broadcastInDim S320000x8x32 ![] bcast_S_S320000x8x32 (constant S_ .f32 0x7FC00000#32))

/-- A row number in `[0, 20000)` is not negative, so the normalisation keeps it, and it is at most 19999. -/
theorem word_in_range (w : BitVec 32) (h : 0 ≤ w.toInt ∧ w.toInt < 20000) :
    IntOp.andi (IntOp.cmpi .sge (Scalar.select (IntOp.cmpi .slt w 0#32) (IntOp.addi w 20000#32) w) 0#32)
      (IntOp.cmpi .sle (Scalar.select (IntOp.cmpi .slt w 0#32) (IntOp.addi w 20000#32) w) 19999#32) = 1#1 := by
  have h0 : IntOp.cmpi .sge w 0#32 = 1#1 := IntOp.cmpi_sge.2 (by
    have : (0#32 : BitVec 32).toInt = 0 := by decide
    omega)
  have h1 : IntOp.cmpi .slt w 20000#32 = 1#1 := IntOp.cmpi_slt.2 (by
    have : (20000#32 : BitVec 32).toInt = 20000 := by decide
    omega)
  rw [Scalar.select_wrap_of_nonneg h0]
  exact IntOp.andi_eq_one.2 ⟨h0, IntOp.sle_pred_of_slt (by decide) h1⟩

/-- With every row number in `[0, 20000)` the normalisation changes nothing: the start indices are the list itself. -/
theorem startIdx_eq (src : IVec S320000 32) (hsrc : ∀ e, 0 ≤ (src e).toInt ∧ (src e).toInt < 20000) :
    startIdx src = broadcastInDim S320000x1 ![0] bcast_S320000_S320000x1_0 src := by
  have hsel : select (cmpi .slt src (broadcastInDim S320000 ![] bcast_S_S320000 (constantI S_ 32 0#32)))
      (addi src (broadcastInDim S320000 ![] bcast_S_S320000 (constantI S_ 32 20000#32))) src = src := funext fun e => by
    show Scalar.select (IntOp.cmpi .slt (src e) 0#32) (IntOp.addi (src e) 20000#32) (src e) = src e
    exact Scalar.select_wrap_of_nonneg (IntOp.cmpi_sge.2 (by
      have : (0#32 : BitVec 32).toInt = 0 := by decide
      have := (hsrc e).1
      omega))
  unfold startIdx
  rw [hsel]

/-- TAKING ROWS AT IN-RANGE NUMBERS is the plain gather at the list. -/
theorem takeRows_eq (x : FVec Ideal S20000x8x32 .f32) (src : IVec S320000 32)
    (hsrc : ∀ e, 0 ≤ (src e).toInt ∧ (src e).toInt < 20000) :
    takeRows x src = Host.gather gather_S20000x8x32_S320000x1_S320000x8x32_12_0_n_n_0_1_1832 x
      (broadcastInDim S320000x1 ![0] bcast_S320000_S320000x1_0 src) := by
  rw [← startIdx_eq src hsrc]
  unfold takeRows
  funext j
  refine select_apply_of_one _ _ _ j ?_
  show inRange src _ = 1#1
  unfold inRange
  refine Host.reduce_andi_of_all _ _ _ _ rfl (fun i => ?_) _
  exact word_in_range (src _) (hsrc _)

end Cert.KernelIdeal.EdgeValue

end
-- ==== Proof.LibTypedRef.lean ====
/-
  A typed reference's two transports are inverse to each other.

  A typed reference to a buffer carries the equation between the buffer's declared type and the value's type, and
  moves contents along it in either direction. Going there and coming back is the identity, whatever the equation:
  substitute it and both transports become the identity map.
-/
import Idealize.ShloMosaic.Lib.StableHlo

namespace Idealize.ShloMosaic.StableHlo.TRef

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, _, _⟩ := x
  subst h
  rfl

/-- Contents moved to the value's type and back are the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.EdgePrefix.lean ====
/-
  What the region finds in its three input arrays and in the list of destinations. Before the region the program
  reshapes the three tables to `[20000, 8, 32]`, cuts the edge list into its row of sources and its row of
  destinations, and takes, per edge, the key row and the value row of the source and the query row of the destination.
-/
import proofs.«423369_j31327491457426_2_alg».proof.Proof.Gen.KernelIdeal.Frame
import proofs.«423369_j31327491457426_2_alg».proof.Proof.EdgeTake
import proofs.«423369_j31327491457426_2_alg».proof.Proof.LibTypedRef
import Idealize.ShloMosaic.Lib.StableHlo.Run

set_option maxRecDepth 16384

noncomputable section

namespace Cert.KernelIdeal.EdgeValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

-- the two sides below differ only in transports along equations between equal types; comparing them must not open
-- the reductions and gathers over the 320000 edges
attribute [local irreducible] Host.reduce Host.gather

set_option maxHeartbeats 4000000 in
/-- The list of destinations as the lines after the region read it. -/
theorem dests_eq (c : Dev nD) :
    (V m c main_v6 : IVec S320000 32) = dests (m ((c.tc : Thread nD τ).loc main_arg3)) := by
  dsimp only [V, V0]
  simp only [hostOps0, hostOps0_1, hostOps0_2, hostOps0_3, List.flatten_cons, List.flatten_nil, List.append_nil, List.cons_append, List.nil_append]
  after_results_simp
  rfl

set_option maxHeartbeats 8000000 in
/-- The key rows the region finds: the key table's rows taken at the sources. -/
theorem keys_eq (c : Dev nD) :
    (V m c main_v7 : FVec Ideal S320000x8x32 .f32)
      = takeRows (rowsOf (m ((c.tc : Thread nD τ).loc main_arg1))) (sources (m ((c.tc : Thread nD τ).loc main_arg3))) := by
  dsimp only [V, V0]
  simp only [hostOps0, hostOps0_1, hostOps0_2, hostOps0_3, List.flatten_cons, List.flatten_nil, List.append_nil, List.cons_append, List.nil_append]
  after_results_simp
  simp only [TRef.ofBuf_toBuf]
  unfold takeRows inRange startIdx rowsOf sources
  rfl

set_option maxHeartbeats 8000000 in
/-- The query rows the region finds: the query table's rows taken at the destinations. -/
theorem queries_eq (c : Dev nD) :
    (V m c main_v8 : FVec Ideal S320000x8x32 .f32)
      = takeRows (rowsOf (m ((c.tc : Thread nD τ).loc main_arg0))) (dests (m ((c.tc : Thread nD τ).loc main_arg3))) := by
  dsimp only [V, V0]
  simp only [hostOps0, hostOps0_1, hostOps0_2, hostOps0_3, List.flatten_cons, List.flatten_nil, List.append_nil, List.cons_append, List.nil_append]
  after_results_simp
  simp only [TRef.ofBuf_toBuf]
  unfold takeRows inRange startIdx rowsOf dests
  rfl

set_option maxHeartbeats 8000000 in
/-- The value rows the region finds: the value table's rows taken at the sources. -/
theorem values_eq (c : Dev nD) :
    (V m c main_v9 : FVec Ideal S320000x8x32 .f32)
      = takeRows (rowsOf (m ((c.tc : Thread nD τ).loc main_arg2))) (sources (m ((c.tc : Thread nD τ).loc main_arg3))) := by
  dsimp only [V, V0]
  simp only [hostOps0, hostOps0_1, hostOps0_2, hostOps0_3, List.flatten_cons, List.flatten_nil, List.append_nil, List.cons_append, List.nil_append]
  after_results_simp
  simp only [TRef.ofBuf_toBuf]
  unfold takeRows inRange startIdx rowsOf sources
  rfl

end Cert.KernelIdeal.EdgeValue

end
-- ==== Proof.EdgeSpec.lean ====
/-
  The two edge-indexed arrays both programs compute, as functions of the gathered rows, entry by entry.
  With `gk[e]`, `gq[e]`, `gv[e]` the key row of edge `e`'s source, the query row of its destination and the value row
  of its source (each split into 8 heads of 32 lanes), the SCORE of edge `e` and head `h` is
  `exp (clip ((∑ d, gk[e,h,d] · gq[e,h,d]) · r, −5, 5))`, `r = 2097152 / 11863283` the reciprocal of the divisor the
  reference uses, and the MESSAGE at `(e, h, d)` is `gv[e,h,d]` times that score.
-/
import Idealize.ShloMosaic.PureOps.Ideal
import Idealize.ShloMosaic.Lib.ValueIdx

noncomputable section

namespace Cert.EdgeSpec

open Idealize.ShloMosaic Idealize.ShloMosaic.ValueIdx

/-- The edge rows, `[320000, 8, 32]`, and the per-edge, per-head scores, `[320000, 8]`. -/
abbrev E3 : Shape := ⟨3, ![320000, 8, 32]⟩
abbrev E2 : Shape := ⟨2, ![320000, 8]⟩

/-- The clipped, exponentiated score of an extended real `s` (the raw dot product of one edge and head): the product with
    the reciprocal of the divisor, clipped to `[−5, 5]`, exponentiated. -/
def scoreOf (s : EReal) : EReal :=
  Ideal.exp (min (Ideal.ofBits .f32 0x40A00000#32) (max (Ideal.ofBits .f32 0xC0A00000#32)
    (s * ((2097152 / 11863283 : ℝ) : EReal))))

/-- The score of edge `e` and head `h`. -/
def score (gk gq : E3.Idx → EReal) (e : Fin 320000) (h : Fin 8) : EReal :=
  scoreOf (∑ d : Fin 32, gk (ix3 e h d) * gq (ix3 e h d))

/-- The array of scores. -/
def scoreArr (gk gq : E3.Idx → EReal) : E2.Idx → EReal := fun i => score gk gq (i 0) (i 1)

/-- The array of messages. -/
def msgArr (gk gq gv : E3.Idx → EReal) : E3.Idx → EReal := fun i => gv i * score gk gq (i 0) (i 1)

end Cert.EdgeSpec

end
-- ==== Proof.EdgePayload.lean ====
/-
  What the kernel body computes for one block of 1000 edges, read at one entry.
  For edge `p` of the block and head `h` the stored score is
  `exp (clip ((∑ d, k[p,h,d] · q[p,h,d]) · c, −5, 5))` with `c` the scale constant, named to be the reciprocal
  `2097152 / 11863283` of the reference's divisor; the stored message at `(p, h, d)` is `v[p,h,d]` times that score.
  The sum over the 32 lanes of a head is the lane reduction read as a finite sum; the casts between equal shapes are
  the identity, the cast to `[1000, 8, 1]` followed by the broadcast to `[1000, 8, 32]` repeats the score along a head.
-/
import proofs.«423369_j31327491457426_2_alg».proof.Proof.Gen.KernelIdeal.Skeleton
import proofs.«423369_j31327491457426_2_alg».proof.Proof.EdgeSpec
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.EdgeValue

open Idealize.ShloMosaic Idealize.ShloMosaic.ValueIdx Cert.KernelIdeal Cert.KernelIdeal.Gen
open Cert.EdgeSpec (scoreOf)

/-- The kernel's scale constant is, by the certificate's table, the rational `2097152 / 11863283`. -/
theorem inv_scale :
    Named.named (F := Ideal) Cert.KernelIdeal.κ "inv_scale" (φ := .f32) 0x3E3504F3#32 = ((2097152 / 11863283 : ℝ) : EReal) :=
  IdealRules.named_const.ideal_named_scalar _ _ _ _ rfl

/-- The lane sum of a block's products at edge `p`, head `h`. -/
theorem laneSum_apply (x : FVec Ideal S1000x8x32 .f32) (hacc : (0x00000000#32 : BitVec 32) = 0x00000000#32)
    (p : Fin 1000) (h : Fin 8) :
    multiReduction .add [2] S1000x8 x 0x00000000#32 reduces_S1000x8x32_S1000x8 (.inl rfl) hacc (ix2 p h)
      = ∑ d : Fin 32, x (ix3 p h d) := by
  refine (Ideal.multiReduction_add_single x 0x00000000#32 reduces_S1000x8x32_S1000x8 (.inl rfl) hacc (ix2 p h)).trans ?_
  refine Finset.sum_congr rfl fun d _ => congrArg x ?_
  funext a
  match a with
  | ⟨0, _⟩ => rfl
  | ⟨1, _⟩ => rfl
  | ⟨2, _⟩ => rfl

/-- THE SCORE the body stores at edge `p`, head `h`, from the block of keys and the block of queries. -/
theorem score_apply (xk xq : FVec Ideal S1000x8x32 .f32) (p : Fin 1000) (h : Fin 8) :
    k0_pay1 (F := Ideal) xk xq (ix2 p h) = scoreOf (∑ d : Fin 32, xk (ix3 p h d) * xq (ix3 p h d)) := by
  unfold k0_pay1 scoreOf
  simp only [shapeCast_self]
  show Ideal.exp (min (Ideal.ofBits .f32 0x40A00000#32) (max (Ideal.ofBits .f32 0xC0A00000#32)
    (multiReduction (F := Ideal) .add [2] S1000x8 (mulf (F := Ideal) xk xq) 0x00000000#32 reduces_S1000x8x32_S1000x8 (.inl rfl) rfl (ix2 p h)
      * Named.named (F := Ideal) Cert.KernelIdeal.κ "inv_scale" (φ := .f32) 0x3E3504F3#32))) = _
  rw [laneSum_apply (mulf (F := Ideal) xk xq) rfl p h, inv_scale]
  rfl

/-- THE MESSAGE the body stores at edge `p`, head `h`, lane `d`: the value entry times the edge's score. -/
theorem msg_apply (xk xq xv : FVec Ideal S1000x8x32 .f32) (p : Fin 1000) (h : Fin 8) (d : Fin 32) :
    k0_pay2 (F := Ideal) xk xq xv (ix3 p h d) = xv (ix3 p h d) * k0_pay1 (F := Ideal) xk xq (ix2 p h) := by
  unfold k0_pay2
  simp only [shapeCast_self]
  show xv (ix3 p h d) * broadcastTo S1000x8x32 (shapeCast S1000x8x1 (k0_pay1 (F := Ideal) xk xq) shapeCasts_S1000x8_S1000x8x1)
      broadcasts_S1000x8x1_S1000x8x32 (ix3 p h d) = _
  congr 1
  rw [broadcastTo_apply _ broadcasts_S1000x8x1_S1000x8x32 (ix3 p h d) (ix3 p h (0 : Fin 1)) (fun a => by
    match a with
    | ⟨0, _⟩ => rfl
    | ⟨1, _⟩ => rfl
    | ⟨2, _⟩ => rfl)]
  exact shapeCast_apply _ shapeCasts_S1000x8_S1000x8x1 (ix3 p h (0 : Fin 1)) (ix2 p h) (by
    rw [Shape.rowMajor_val_two, Shape.rowMajor_val_three]
    show p.val * 8 + h.val = (p.val * 8 + h.val) * 1 + 0
    omega)

end Cert.KernelIdeal.EdgeValue

end
-- ==== Proof.EdgeRows.lean ====
/-
  The blocks' rows. The grid has 320 points; at point `t` every window holds rows `1000·t … 1000·t + 999` of its array
  (all heads, all lanes), so a block entry `(p, h, d)` is the array's entry `(1000·t + p, h, d)`; hence the score the
  body computes for row `p` of point `t`'s blocks is the score of edge `1000·t + p`.
-/
import proofs.«423369_j31327491457426_2_alg».proof.Proof.Gen.KernelIdeal.Frame
import proofs.«423369_j31327491457426_2_alg».proof.Proof.EdgePayload
import Idealize.ShloMosaic.Lib.Pipeline.Value

set_option maxRecDepth 65536

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.EdgeSpec (scoreOf score scoreArr msgArr)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: every window's block index at point `t` is `(t, 0, …)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

theorem point_lt (t : Fin cfg0.N) : t.val < 320 := lt_of_lt_of_eq t.isLt N_0

/-- Row `p` of point `t`'s blocks is row `1000·t + p` of the arrays. -/
def row (t : Fin cfg0.N) (p : Fin 1000) : Fin 320000 :=
  ⟨t.val * 1000 + p.val, by have := point_lt t; have := p.isLt; omega⟩

/-- The block of gathered keys at point `t`, read at an entry. -/
theorem keys_apply (c : Dev nD) (t : Fin cfg0.N) (p : Fin 1000) (h : Fin 8) (d : Fin 32) :
    iblk m c 0 t (ix3 p h d) = V m c main_v7 (ix3 (row t p) h d) := by
  show V m c main_v7 (((cfg0.win 0).blk t).view.emb (ix3 p h d)) = V m c main_v7 _
  refine congrArg (V m c main_v7) ?_
  obtain ⟨e0, e1, e2, -⟩ := idx_facts t
  funext a; apply Fin.ext
  match a with
  | ⟨0, _⟩ => show win0_0.index t (0 : Fin 3) * 1000 + 1 * p.val = t.val * 1000 + p.val; omega
  | ⟨1, _⟩ => show win0_0.index t (1 : Fin 3) * 8 + 1 * h.val = h.val; omega
  | ⟨2, _⟩ => show win0_0.index t (2 : Fin 3) * 32 + 1 * d.val = d.val; omega

/-- The block of gathered queries at point `t`, read at an entry. -/
theorem queries_apply (c : Dev nD) (t : Fin cfg0.N) (p : Fin 1000) (h : Fin 8) (d : Fin 32) :
    iblk m c 1 t (ix3 p h d) = V m c main_v8 (ix3 (row t p) h d) := by
  show V m c main_v8 (((cfg0.win 1).blk t).view.emb (ix3 p h d)) = V m c main_v8 _
  refine congrArg (V m c main_v8) ?_
  obtain ⟨-, -, -, e0, e1, e2, -⟩ := idx_facts t
  funext a; apply Fin.ext
  match a with
  | ⟨0, _⟩ => show win0_1.index t (0 : Fin 3) * 1000 + 1 * p.val = t.val * 1000 + p.val; omega
  | ⟨1, _⟩ => show win0_1.index t (1 : Fin 3) * 8 + 1 * h.val = h.val; omega
  | ⟨2, _⟩ => show win0_1.index t (2 : Fin 3) * 32 + 1 * d.val = d.val; omega

/-- The block of gathered values at point `t`, read at an entry. -/
theorem values_apply (c : Dev nD) (t : Fin cfg0.N) (p : Fin 1000) (h : Fin 8) (d : Fin 32) :
    iblk m c 2 t (ix3 p h d) = V m c main_v9 (ix3 (row t p) h d) := by
  show V m c main_v9 (((cfg0.win 2).blk t).view.emb (ix3 p h d)) = V m c main_v9 _
  refine congrArg (V m c main_v9) ?_
  obtain ⟨-, -, -, -, -, -, e0, e1, e2, -⟩ := idx_facts t
  funext a; apply Fin.ext
  match a with
  | ⟨0, _⟩ => show win0_2.index t (0 : Fin 3) * 1000 + 1 * p.val = t.val * 1000 + p.val; omega
  | ⟨1, _⟩ => show win0_2.index t (1 : Fin 3) * 8 + 1 * h.val = h.val; omega
  | ⟨2, _⟩ => show win0_2.index t (2 : Fin 3) * 32 + 1 * d.val = d.val; omega

/-- The score of row `p` of point `t`'s blocks is the score of edge `1000·t + p`. -/
theorem block_score (c : Dev nD) (t : Fin cfg0.N) (p : Fin 1000) (h : Fin 8) :
    k0_pay1 (F := Ideal) (iblk m c 0 t) (iblk m c 1 t) (ix2 p h) = score (V m c main_v7) (V m c main_v8) (row t p) h := by
  refine (score_apply (iblk m c 0 t) (iblk m c 1 t) p h).trans ?_
  unfold score
  refine congrArg scoreOf (Finset.sum_congr rfl fun d _ => ?_)
  rw [keys_apply, queries_apply]

end Cert.KernelIdeal.EdgeValue

end
-- ==== Proof.EdgeBlocks.lean ====
/-
  From blocks to arrays. The 320 blocks of each output window tile its array, and what point `t` writes back is block
  `t` of one whole-array function of the gathered rows: the array of scores for the one window, the array of messages
  for the other. So after the run the two output arrays hold those two functions.
-/
import proofs.«423369_j31327491457426_2_alg».proof.Proof.EdgeRows

set_option maxRecDepth 65536

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.EdgeSpec (scoreOf score scoreArr msgArr)

variable (m : (ℓ : Loc nD τ sig) → Buf (Elt Ideal) ℓ)

/-! ## The scores' array (window 4) -/

/-- An array of scores read through point `t`'s block at `(p, h)` is the array at `(1000·t + p, h)`. -/
theorem read_block_scores (t : Fin cfg0.N) (G : S320000x8.Idx → EReal) (p : Fin 1000) (h : Fin 8) :
    ((cfg0.win 4).blk t).view.read (Elt Ideal) G (ix2 p h) = G (ix2 (row t p) h) := by
  show G (((cfg0.win 4).blk t).view.emb (ix2 p h)) = G _
  refine congrArg G ?_
  obtain ⟨-, -, -, -, -, -, -, -, -, -, -, -, e0, e1⟩ := idx_facts t
  funext a; apply Fin.ext
  match a with
  | ⟨0, _⟩ => show win0_4.index t (0 : Fin 2) * 1000 + 1 * p.val = t.val * 1000 + p.val; omega
  | ⟨1, _⟩ => show win0_4.index t (1 : Fin 2) * 8 + 1 * h.val = h.val; omega

/-- WHAT POINT `t` WRITES BACK to the scores' array is block `t` of the array of scores. -/
theorem flushed_scores (c : Dev nD) (t : Fin cfg0.N) :
    (dats m 0 c).flushed 4 t = ((cfg0.win 4).blk t).view.read (Elt Ideal) (scoreArr (V m c main_v7) (V m c main_v8)) := by
  show (cfg0.win 4).cut (grid0.coords t) ((dats m 0 c).after 4 t) = _
  rw [after0_4]
  unfold out0_4
  rw [View.canon_unit_zero zero2]
  simp only [View.ld_unit_zero (S := S1000x8x32) zero3]
  funext j
  obtain ⟨p, h, rfl⟩ : ∃ (p : Fin 1000) (h : Fin 8), j = ix2 p h := ⟨j 0, j 1, eq_ix2 j⟩
  refine Eq.trans (b := k0_pay1 (F := Ideal) (iblk m c 0 t) (iblk m c 1 t) (ix2 p h)) rfl ?_
  refine Eq.trans ?_ (read_block_scores t _ p h).symm
  exact (block_score m c t p h).trans rfl

theorem mem_block_scores (t : Fin cfg0.N) (i : S320000x8.Idx) :
    i ∈ ((cfg0.win 4).blk t).view.set ↔ ∀ a : Fin 2, win0_4.index t a * S1000x8.size a ≤ (i a).val ∧ (i a).val < win0_4.index t a * S1000x8.size a + S1000x8.size a := by
  show i ∈ ((View.whole main_v10_1).slice (win0_4.rect t)).set ↔ _
  rw [View.set_slice_whole, Rect.mem_set_unit]
  exact Iff.rfl

/-- Every entry of the scores' array is in the block of the point its row falls in. -/
theorem cover_scores (i : S320000x8.Idx) :
    ∃ t : Fin cfg0.N, (cfg0.win 4).flush t = true ∧ i ∈ ((cfg0.win 4).blk t).view.set := by
  have hi0 : (i 0).val < 320000 := (i 0).isLt
  have hi1 : (i 1).val < 8 := (i 1).isLt
  have hN : grid0.N = 320 := N_0
  let t : Fin cfg0.N := ⟨(i 0).val / 1000, by show (i 0).val / 1000 < grid0.N; omega⟩
  have ht : t.val = (i 0).val / 1000 := rfl
  refine ⟨t, flush0_4 t, ?_⟩
  rw [mem_block_scores]
  obtain ⟨-, -, -, -, -, -, -, -, -, -, -, -, e0, e1⟩ := idx_facts t
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 8 ≤ (i 1).val ∧ (i 1).val < win0_4.index t (1 : Fin 2) * 8 + 8; omega

/-- THE SCORES' ARRAY after the run. -/
theorem final_scores (c : Dev nD) : (dats m 0 c).arrAt 4 cfg0.N = scoreArr (V m c main_v7) (V m c main_v8) :=
  (dats m 0 c).arrAt_eq_of_cover 4 _ (fun t _ => flushed_scores m c t) cover_scores

/-! ## The messages' array (window 3) -/

/-- An array of messages read through point `t`'s block at `(p, h, d)` is the array at `(1000·t + p, h, d)`. -/
theorem read_block_msgs (t : Fin cfg0.N) (G : S320000x8x32.Idx → EReal) (p : Fin 1000) (h : Fin 8) (d : Fin 32) :
    ((cfg0.win 3).blk t).view.read (Elt Ideal) G (ix3 p h d) = G (ix3 (row t p) h d) := by
  show G (((cfg0.win 3).blk t).view.emb (ix3 p h d)) = G _
  refine congrArg G ?_
  obtain ⟨-, -, -, -, -, -, -, -, -, e0, e1, e2, -⟩ := idx_facts t
  funext a; apply Fin.ext
  match a with
  | ⟨0, _⟩ => show win0_3.index t (0 : Fin 3) * 1000 + 1 * p.val = t.val * 1000 + p.val; omega
  | ⟨1, _⟩ => show win0_3.index t (1 : Fin 3) * 8 + 1 * h.val = h.val; omega
  | ⟨2, _⟩ => show win0_3.index t (2 : Fin 3) * 32 + 1 * d.val = d.val; omega

/-- WHAT POINT `t` WRITES BACK to the messages' array is block `t` of the array of messages. -/
theorem flushed_msgs (c : Dev nD) (t : Fin cfg0.N) :
    (dats m 0 c).flushed 3 t
      = ((cfg0.win 3).blk t).view.read (Elt Ideal) (msgArr (V m c main_v7) (V m c main_v8) (V m c main_v9)) := by
  show (cfg0.win 3).cut (grid0.coords t) ((dats m 0 c).after 3 t) = _
  rw [after0_3]
  unfold out0_3
  rw [View.canon_unit_zero zero3]
  simp only [View.ld_unit_zero (S := S1000x8x32) zero3]
  funext j
  obtain ⟨p, h, d, rfl⟩ : ∃ (p : Fin 1000) (h : Fin 8) (d : Fin 32), j = ix3 p h d := ⟨j 0, j 1, j 2, eq_ix3 j⟩
  refine Eq.trans (b := k0_pay2 (F := Ideal) (iblk m c 0 t) (iblk m c 1 t) (iblk m c 2 t) (ix3 p h d)) rfl ?_
  refine Eq.trans ?_ (read_block_msgs t _ p h d).symm
  refine (msg_apply (iblk m c 0 t) (iblk m c 1 t) (iblk m c 2 t) p h d).trans ?_
  rw [values_apply, block_score]
  rfl

theorem mem_block_msgs (t : Fin cfg0.N) (i : S320000x8x32.Idx) :
    i ∈ ((cfg0.win 3).blk t).view.set ↔ ∀ a : Fin 3, win0_3.index t a * S1000x8x32.size a ≤ (i a).val ∧ (i a).val < win0_3.index t a * S1000x8x32.size a + S1000x8x32.size a := by
  show i ∈ ((View.whole main_v10_0).slice (win0_3.rect t)).set ↔ _
  rw [View.set_slice_whole, Rect.mem_set_unit]
  exact Iff.rfl

/-- Every entry of the messages' array is in the block of the point its row falls in. -/
theorem cover_msgs (i : S320000x8x32.Idx) :
    ∃ t : Fin cfg0.N, (cfg0.win 3).flush t = true ∧ i ∈ ((cfg0.win 3).blk t).view.set := by
  have hi0 : (i 0).val < 320000 := (i 0).isLt
  have hi1 : (i 1).val < 8 := (i 1).isLt
  have hi2 : (i 2).val < 32 := (i 2).isLt
  have hN : grid0.N = 320 := N_0
  let t : Fin cfg0.N := ⟨(i 0).val / 1000, by show (i 0).val / 1000 < grid0.N; omega⟩
  have ht : t.val = (i 0).val / 1000 := rfl
  refine ⟨t, flush0_3 t, ?_⟩
  rw [mem_block_msgs]
  obtain ⟨-, -, -, -, -, -, -, -, -, e0, e1, e2, -⟩ := idx_facts t
  intro a
  match a with
  | ⟨0, _⟩ => show win0_3.index t (0 : Fin 3) * 1000 ≤ (i 0).val ∧ (i 0).val < win0_3.index t (0 : Fin 3) * 1000 + 1000; omega
  | ⟨1, _⟩ => show win0_3.index t (1 : Fin 3) * 8 ≤ (i 1).val ∧ (i 1).val < win0_3.index t (1 : Fin 3) * 8 + 8; omega
  | ⟨2, _⟩ => show win0_3.index t (2 : Fin 3) * 32 ≤ (i 2).val ∧ (i 2).val < win0_3.index t (2 : Fin 3) * 32 + 32; omega

/-- THE MESSAGES' ARRAY after the run. -/
theorem final_msgs (c : Dev nD) :
    (dats m 0 c).arrAt 3 cfg0.N = msgArr (V m c main_v7) (V m c main_v8) (V m c main_v9) :=
  (dats m 0 c).arrAt_eq_of_cover 3 _ (fun t _ => flushed_msgs m c t) cover_msgs

end Cert.KernelIdeal.EdgeValue

end
-- ==== Proof.EdgeTail.lean ====
/-
  The lines after the region. They add, per destination node, the messages and the scores of the edges that end
  there (two accumulating scatters from zero along the node axis), add a small constant to the summed scores, divide
  the summed messages by that, lane by lane, and reshape to `[1, 20000, 256]`. The program's result is that one
  function of the list of destinations and of the two arrays the region left, which are the array of messages and the
  array of scores of the gathered rows.
-/
import proofs.«423369_j31327491457426_2_alg».proof.Proof.EdgeBlocks
import Idealize.ShloMosaic.Lib.StableHlo.Run

set_option maxRecDepth 16384

noncomputable section

namespace Cert.KernelIdeal.EdgeValue

open Idealize.ShloMosaic Idealize.ShloMosaic.TcCoe Idealize.SL.Sem Idealize.ShloMosaic.StableHlo
open Cert.KernelIdeal Cert.KernelIdeal.Gen
open Cert.EdgeSpec (scoreArr msgArr)

variable (m : (ℓ : Loc nD τ sig) → Buf (Elt Ideal) ℓ)

/-- The lines after the region as one function of the destinations, the messages and the scores. -/
def tailOf (dst : IVec S320000 32) (msg : FVec Ideal S320000x8x32 .f32) (sc : FVec Ideal S320000x8 .f32) :
    FVec Ideal S1x20000x256 .f32 :=
  shapeCast S1x20000x256
    (Host.divf (F := Ideal)
      (Host.scatterAdd (F := Ideal) scatter_S20000x8x32_S320000x1_S320000x8x32_12_0_0_1
        (broadcastInDim S20000x8x32 ![] bcast_S_S20000x8x32 (constant (F := Ideal) S_ .f32 0x00000000#32))
        (broadcastInDim S320000x1 ![0] bcast_S320000_S320000x1_0 dst) msg)
      (broadcastInDim S20000x8x32 ![0, 1, 2] bcast_S20000x8x1_S20000x8x32_0_1_2
        (addf (F := Ideal)
          (broadcastInDim S20000x8x1 ![0, 1] bcast_S20000x8_S20000x8x1_0_1
            (Host.scatterAdd (F := Ideal) scatter_S20000x8_S320000x1_S320000x8_1_0_0_1
              (broadcastInDim S20000x8 ![] bcast_S_S20000x8 (constant (F := Ideal) S_ .f32 0x00000000#32))
              (broadcastInDim S320000x1 ![0] bcast_S320000_S320000x1_0 dst) sc))
          (broadcastInDim S20000x8x1 ![] bcast_S_S20000x8x1 (constant (F := Ideal) S_ .f32 0x358637BD#32)))))
    shapeCasts_S20000x8x32_S1x20000x256

set_option maxHeartbeats 4000000 in
/-- THE PROGRAM'S RESULT: the lines after the region applied to the destinations as the region found them and to the
    arrays of messages and scores of the gathered rows. -/
theorem result_eq (c : Dev nD) :
    (Pipeline.afterTail₀ cfgs (dats m) 0 (V0 m) [hostOps1] c main_v22 : FVec Ideal S1x20000x256 .f32)
      = tailOf (V m c main_v6) (msgArr (V m c main_v7) (V m c main_v8) (V m c main_v9))
          (scoreArr (V m c main_v7) (V m c main_v8)) := by
  have h6 : Pipeline.withArrays (cfgs 0).spec c (V0 m c) (fun w => (dats m 0 c).arrAt w (cfgs 0).N) (Proc.devRef .tc main_v6)
      = V m c main_v6 :=
    Pipeline.withArrays_of_ne _ c (V0 m c) _ main_v6 (by exact (by decide : ∀ w, Pipeline.arrRef spec0 w ≠ main_v6))
  have h3 : Pipeline.withArrays (cfgs 0).spec c (V0 m c) (fun w => (dats m 0 c).arrAt w (cfgs 0).N) (Proc.devRef .tc main_v10_0)
      = msgArr (V m c main_v7) (V m c main_v8) (V m c main_v9) :=
    (Pipeline.withArrays_arr spec0 launch0.win.arr_inj c _ _ 3).trans (final_msgs m c)
  have h4 : Pipeline.withArrays (cfgs 0).spec c (V0 m c) (fun w => (dats m 0 c).arrAt w (cfgs 0).N) (Proc.devRef .tc main_v10_1)
      = scoreArr (V m c main_v7) (V m c main_v8) :=
    (Pipeline.withArrays_arr spec0 launch0.win.arr_inj c _ _ 4).trans (final_scores m c)
  unfold Pipeline.afterTail₀
  simp only [hostOps1, List.flatten_cons, List.flatten_nil, List.append_nil, List.cons_append, List.nil_append]
  after_results
  rw [h6, h3, h4]
  rfl

end Cert.KernelIdeal.EdgeValue

end
-- ==== Proof.ScaleConst.lean ====
/-
  The one float constant of the reference whose exact value the proof uses: the divisor of the attention scores,
  the single-precision word nearest to the square root of 32. Its value is the dyadic rational 11863283 / 2^21, and on
  the extended reals dividing by it is multiplying by its reciprocal 2097152 / 11863283, the value the kernel's scale
  constant is named to have.
-/
import Idealize.ShloMosaic.PureOps.Ideal

noncomputable section

namespace Cert.ScaleConst

open Idealize.ShloMosaic

/-- The reference's divisor, the word `0x40B504F3`, denotes `11863283 / 2097152`. -/
theorem ofBits_scale : Ideal.ofBits .f32 0x40B504F3#32 = ((11863283 / 2097152 : ℝ) : EReal) := by
  simp [Ideal.ofBits, Ideal.ieee, -EReal.coe_mul]; norm_num

/-- Dividing an extended real by the reference's divisor is multiplying it by the reciprocal `2097152 / 11863283`. -/
theorem div_scale (x : EReal) :
    Ideal.div x (Ideal.ofBits .f32 0x40B504F3#32) = x * ((2097152 / 11863283 : ℝ) : EReal) := by
  rw [ofBits_scale, Ideal.div_coe (by norm_num)]
  congr 2
  norm_num

end Cert.ScaleConst

end
-- ==== Proof.RefStages.lean ====
/-
  The reference's two edge-indexed stages, read entry by entry: its array of scores (kept with a trailing unit axis)
  and its array of messages are the functions of the gathered rows that the kernel's blocks compute. The reference
  divides the dot product by the single-precision word nearest to the square root of 32; on the extended reals that is
  the product with the reciprocal `2097152 / 11863283`; the clip is a maximum then a minimum, the exponential the same
  function, and the host's sum over the 32 lanes of a head the finite sum from zero.
-/
import proofs.«423369_j31327491457426_2_alg».proof.Proof.Gen.ReferenceIdeal.Read
import proofs.«423369_j31327491457426_2_alg».proof.Proof.EdgeSpec
import proofs.«423369_j31327491457426_2_alg».proof.Proof.ScaleConst
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read
open Cert.EdgeSpec (scoreOf score scoreArr msgArr)

variable (x0 x1 x2 : (⟨S1x20000x256, .f32⟩ : BufTy).Contents (Elt Ideal)) (x3 : (⟨S2x320000, .i32⟩ : BufTy).Contents (Elt Ideal))

/-- The reference's score of edge `e` and head `h` (its one entry on the trailing unit axis). -/
theorem ref_score (e : Fin 320000) (h : Fin 8) :
    val_main_v27 (F := Ideal) x0 x1 x3 (ix3 e h (0 : Fin 1))
      = score (val_main_v13 (F := Ideal) x1 x3) (val_main_v20 (F := Ideal) x0 x3) e h := by
  have hidx : ∀ k : Fin 32, idx_main_v22 (idx_main_v23 (ix3 e h (0 : Fin 1))) k = ix3 e h k := fun k =>
    funext fun a => by
      match a with
      | ⟨0, _⟩ => rfl
      | ⟨1, _⟩ => rfl
      | ⟨2, _⟩ => rfl
  rw [val_main_v27_apply, val_main_v26_apply, val_main_call0_v4_apply, val_main_call0_v3_apply, val_main_cst_5_apply,
    val_main_call0_v2_apply, val_main_call0_v1_apply, val_main_call0_v0_apply, val_main_cst_4_apply,
    val_main_v25_apply, val_main_v24_apply, val_main_cst_3_apply, val_main_v23_apply, val_main_v22_apply,
    val_main_cst_apply]
  simp only [hidx, val_main_v21_apply, Ideal.hostUnary_exp_def, Ideal.minimumf_def, Ideal.maximumf_def,
    Ideal.hostDivf_def, Ideal.mulf_def, Ideal.ofBits_def, Ideal.ofBits_zero_f32, zero_add, Cert.ScaleConst.div_scale]
  rfl

/-- The reference's array of scores, entry by entry. -/
theorem ref_scores (i : S320000x8x1.Idx) :
    val_main_v27 (F := Ideal) x0 x1 x3 i
      = scoreArr (val_main_v13 (F := Ideal) x1 x3) (val_main_v20 (F := Ideal) x0 x3) (ix2 (i 0) (i 1)) := by
  obtain ⟨e, h, z, rfl⟩ : ∃ (e : Fin 320000) (h : Fin 8) (z : Fin 1), i = ix3 e h z := ⟨i 0, i 1, i 2, eq_ix3 i⟩
  obtain rfl : z = 0 := Subsingleton.elim _ _
  exact ref_score x0 x1 x3 e h

/-- The reference's array of messages. -/
theorem ref_msgs :
    val_main_v36 (F := Ideal) x0 x1 x2 x3
      = msgArr (val_main_v13 (F := Ideal) x1 x3) (val_main_v20 (F := Ideal) x0 x3) (val_main_v34 (F := Ideal) x2 x3) := by
  funext i
  obtain ⟨e, h, d, rfl⟩ : ∃ (e : Fin 320000) (h : Fin 8) (d : Fin 32), i = ix3 e h d := ⟨i 0, i 1, i 2, eq_ix3 i⟩
  have hidx : idx_main_v35 (ix3 e h d) = ix3 e h (0 : Fin 1) := funext fun a => by
    match a with
    | ⟨0, _⟩ => rfl
    | ⟨1, _⟩ => rfl
    | ⟨2, _⟩ => rfl
  rw [val_main_v36_apply, val_main_v35_apply, hidx, ref_score]
  rfl

end Cert.ReferenceIdeal.RefValue

end
-- ==== Proof.LibScatterUnit.lean ====
/-
  SCATTER-ADD THROUGH A TRAILING UNIT AXIS (a general lemma about the ideal instance's accumulating scatter; it
  mentions no program).

  The accumulating scatter of updates `s : [E, H]` into an operand `x : [N, H]` along axis 0, at the row indices
  `idx : [E, 1]`, has at `(n, h)` the value `x n h` plus the sum of `s e c` over the update indices `(e, c)` whose
  result index is `(n, h)`. The result index of `(e, c)` is, axis by axis, start plus window coordinate: on axis 0
  (the scattered, inserted axis) the start is `idx e 0` read as a signed integer and the window coordinate is `0`;
  on axis 1 the start is `0` and the window coordinate is `c`. So `(e, c)` lands on `(n, h)` exactly when
  `idx e 0 = n` (as integers) and `c = h`.

  Seen with a trailing unit axis — operand `[N, H, 1]`, updates `[E, H, 1]`, window axes `[1, 2]` — the first two
  axes read the same, and the third has start `0` and window coordinate the update's third coordinate, which is
  `0` because the axis has one element; the target's third coordinate is `0` too, so the third axis asks nothing:
  `(e, c, 0)` lands on `(n, h, 0)` exactly when `idx e 0 = n` and `c = h`. Hence `(e, c) ↦ (e, c, 0)` is a bijection
  between the two sets of landing update indices, the summands agree along it, and the two sums, and with them
  the two scatter values, are equal.

  Proof shape: `resultIdx?_eq_some_iff` (an update lands on `i` iff start plus window is `i`'s coordinate on every
  axis, for any dimension numbers); `start2_*` / `window2_*` and `start3_*` / `window3_*` (what start and window
  are on each axis of the two literal dimension numbers); `res2_iff` / `res3_iff` (the landing condition in both
  ranks); `hostScatterAdd_unit_axis` (the sums re-indexed along the bijection).
-/
import Idealize.ShloMosaic.PureOps.Ideal
import Idealize.ShloMosaic.Lib.ValueIdx
noncomputable section
namespace Cert.Lib.ScatterUnit
open Idealize.ShloMosaic Idealize.ShloMosaic.ValueIdx

abbrev dims2 (N E H : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ :=
  { updateWindowDims := [1], insertedWindowDims := [0], scatterDimsToOperandDims := [0], indexVectorDim := 1, wf := wf }
abbrev dims3 (N E H : Nat) (wf : ScatterDims.WF ⟨3, ![N, H, 1]⟩ ⟨2, ![E, 1]⟩ ⟨3, ![E, H, 1]⟩ [1, 2] [0] [0] 1) :
    ScatterDims ⟨3, ![N, H, 1]⟩ ⟨2, ![E, 1]⟩ ⟨3, ![E, H, 1]⟩ :=
  { updateWindowDims := [1, 2], insertedWindowDims := [0], scatterDimsToOperandDims := [0], indexVectorDim := 1, wf := wf }

/-- A scatter update lands on operand index `i` exactly when, on every axis, start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hh
    constructor
    · intro he a
      have h1 := congrFun (Option.some.inj he) a
      have h2 := congrArg Fin.val h1
      simp only at h2
      have h3 := (hh a).1
      omega
    · intro he
      congr 1
      funext a
      apply Fin.ext
      simp only
      have h1 := he a
      omega
  · rename_i hh
    constructor
    · intro he; exact absurd he (by simp)
    · intro he
      exfalso; apply hh
      intro a
      have h1 := he a
      have h2 := (i a).isLt
      omega

section Rank2
variable {N E H w : Nat} (wf : ScatterDims.WF ⟨2, ![N, H]⟩ ⟨2, ![E, 1]⟩ ⟨2, ![E, H]⟩ [1] [0] [0] 1)
  (idx : IVec ⟨2, ![E, 1]⟩ w) (j : (⟨2, ![E, H]⟩ : Shape).Idx)

/-- On the scattered axis the window starts at the row's index, read signed. -/
theorem start2_0 : (dims2 N E H wf).start j idx 0 = (idx (ix2 (j 0) 0)).toInt := by
  unfold ScatterDims.start
  rw [dif_pos (show (0 : Fin 2) ∈ (dims2 N E H wf).scatterDimsToOperandDims from List.mem_singleton.mpr rfl)]
  have hsi : (dims2 N E H wf).siIdx j ⟨List.idxOf (0 : Fin 2) (dims2 N E H wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The other axis is not scattered: its start is `0`. -/
theorem start2_1 : (dims2 N E H wf).start j idx 1 = 0 := by
  unfold ScatterDims.start
  rw [dif_neg (show ¬ (1 : Fin 2) ∈ (dims2 N E H wf).scatterDimsToOperandDims from by
    intro hm
    have hm' : (1 : Fin 2) = (0 : Fin 2) := List.mem_singleton.mp hm
    exact absurd hm' (by decide))]

/-- The scattered axis is an inserted window axis: window coordinate `0`. -/
theorem window2_0 : (dims2 N E H wf).window j 0 = 0 := by
  unfold ScatterDims.window
  rw [dif_neg (show ¬ (0 : Fin 2) ∈ (dims2 N E H wf).sKept from by
    intro hm
    have hm' : (0 : Fin 2) ∈ [(1 : Fin 2)] := hm
    have hm'' : (0 : Fin 2) = (1 : Fin 2) := List.mem_singleton.mp hm'
    exact absurd hm'' (by decide))]

/-- The other axis carries the update's window coordinate. -/
theorem window2_1 : (dims2 N E H wf).window j 1 = (j 1).val := by
  unfold ScatterDims.window
  rw [dif_pos (show (1 : Fin 2) ∈ (dims2 N E H wf).sKept from
    (show (1 : Fin 2) ∈ [(1 : Fin 2)] from List.mem_singleton.mpr rfl))]
  rfl
end Rank2

section Rank3
variable {N E H w : Nat} (wf : ScatterDims.WF ⟨3, ![N, H, 1]⟩ ⟨2, ![E, 1]⟩ ⟨3, ![E, H, 1]⟩ [1, 2] [0] [0] 1)
  (idx : IVec ⟨2, ![E, 1]⟩ w) (j : (⟨3, ![E, H, 1]⟩ : Shape).Idx)

/-- On the scattered axis the window starts at the row's index, read signed. -/
theorem start3_0 : (dims3 N E H wf).start j idx 0 = (idx (ix2 (j 0) 0)).toInt := by
  unfold ScatterDims.start
  rw [dif_pos (show (0 : Fin 3) ∈ (dims3 N E H wf).scatterDimsToOperandDims from List.mem_singleton.mpr rfl)]
  have hsi : (dims3 N E H wf).siIdx j ⟨List.idxOf (0 : Fin 3) (dims3 N E H wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The second axis is not scattered: its start is `0`. -/
theorem start3_1 : (dims3 N E H wf).start j idx 1 = 0 := by
  unfold ScatterDims.start
  rw [dif_neg (show ¬ (1 : Fin 3) ∈ (dims3 N E H wf).scatterDimsToOperandDims from by
    intro hm
    have hm' : (1 : Fin 3) = (0 : Fin 3) := List.mem_singleton.mp hm
    exact absurd hm' (by decide))]

/-- The unit axis is not scattered: its start is `0`. -/
theorem start3_2 : (dims3 N E H wf).start j idx 2 = 0 := by
  unfold ScatterDims.start
  rw [dif_neg (show ¬ (2 : Fin 3) ∈ (dims3 N E H wf).scatterDimsToOperandDims from by
    intro hm
    have hm' : (2 : Fin 3) = (0 : Fin 3) := List.mem_singleton.mp hm
    exact absurd hm' (by decide))]

/-- The scattered axis is an inserted window axis: window coordinate `0`. -/
theorem window3_0 : (dims3 N E H wf).window j 0 = 0 := by
  unfold ScatterDims.window
  rw [dif_neg (show ¬ (0 : Fin 3) ∈ (dims3 N E H wf).sKept from by
    intro hm
    have hm' : (0 : Fin 3) ∈ [(1 : Fin 3), (2 : Fin 3)] := hm
    revert hm'; decide)]

/-- The second axis carries the update's second coordinate. -/
theorem window3_1 : (dims3 N E H wf).window j 1 = (j 1).val := by
  unfold ScatterDims.window
  rw [dif_pos (show (1 : Fin 3) ∈ (dims3 N E H wf).sKept from
    (show (1 : Fin 3) ∈ [(1 : Fin 3), (2 : Fin 3)] from by decide))]
  rfl

/-- The unit axis carries the update's third coordinate. -/
theorem window3_2 : (dims3 N E H wf).window j 2 = (j 2).val := by
  unfold ScatterDims.window
  rw [dif_pos (show (2 : Fin 3) ∈ (dims3 N E H wf).sKept from
    (show (2 : Fin 3) ∈ [(1 : Fin 3), (2 : Fin 3)] from by decide))]
  rfl
end Rank3

/-- At rank 2, update row `j` lands on `(n, h)` exactly when its row's index, read signed, is `n` and its column
    is `h`. -/
theorem res2_iff {N E H w : Nat} (wf : ScatterDims.WF ⟨2, ![N, H]⟩ ⟨2, ![E, 1]⟩ ⟨2, ![E, H]⟩ [1] [0] [0] 1)
    (idx : IVec ⟨2, ![E, 1]⟩ w) (j : (⟨2, ![E, H]⟩ : Shape).Idx) (n : Fin N) (h : Fin H) :
    (dims2 N E H wf).resultIdx? j idx = some (ix2 n h)
      ↔ (idx (ix2 (j 0) 0)).toInt = (n.val : Int) ∧ (j 1).val = h.val := by
  rw [resultIdx?_eq_some_iff]
  constructor
  · intro hh
    have h0 : (dims2 N E H wf).start j idx 0 + ((dims2 N E H wf).window j 0 : Int) = (n.val : Int) := hh 0
    have h1 : (dims2 N E H wf).start j idx 1 + ((dims2 N E H wf).window j 1 : Int) = (h.val : Int) := hh 1
    rw [start2_0, window2_0] at h0
    rw [start2_1, window2_1] at h1
    constructor <;> omega
  · rintro ⟨e0, e1⟩ a
    match a with
    | ⟨0, _⟩ =>
      show (dims2 N E H wf).start j idx 0 + ((dims2 N E H wf).window j 0 : Int) = (n.val : Int)
      rw [start2_0, window2_0]; omega
    | ⟨1, _⟩ =>
      show (dims2 N E H wf).start j idx 1 + ((dims2 N E H wf).window j 1 : Int) = (h.val : Int)
      rw [start2_1, window2_1]; omega

/-- At rank 3 with a trailing unit axis the condition is the same: the third coordinate of an update index is
    `0`, as the target's is, so the third axis asks nothing. -/
theorem res3_iff {N E H w : Nat} (wf : ScatterDims.WF ⟨3, ![N, H, 1]⟩ ⟨2, ![E, 1]⟩ ⟨3, ![E, H, 1]⟩ [1, 2] [0] [0] 1)
    (idx : IVec ⟨2, ![E, 1]⟩ w) (j : (⟨3, ![E, H, 1]⟩ : Shape).Idx) (n : Fin N) (h : Fin H) :
    (dims3 N E H wf).resultIdx? j idx = some (ix3 n h (0 : Fin 1))
      ↔ (idx (ix2 (j 0) 0)).toInt = (n.val : Int) ∧ (j 1).val = h.val := by
  rw [resultIdx?_eq_some_iff]
  have hj2 : (j 2).val < 1 := (j 2).isLt
  constructor
  · intro hh
    have h0 : (dims3 N E H wf).start j idx 0 + ((dims3 N E H wf).window j 0 : Int) = (n.val : Int) := hh 0
    have h1 : (dims3 N E H wf).start j idx 1 + ((dims3 N E H wf).window j 1 : Int) = (h.val : Int) := hh 1
    rw [start3_0, window3_0] at h0
    rw [start3_1, window3_1] at h1
    constructor <;> omega
  · rintro ⟨e0, e1⟩ a
    match a with
    | ⟨0, _⟩ =>
      show (dims3 N E H wf).start j idx 0 + ((dims3 N E H wf).window j 0 : Int) = (n.val : Int)
      rw [start3_0, window3_0]; omega
    | ⟨1, _⟩ =>
      show (dims3 N E H wf).start j idx 1 + ((dims3 N E H wf).window j 1 : Int) = (h.val : Int)
      rw [start3_1, window3_1]; omega
    | ⟨2, _⟩ =>
      show (dims3 N E H wf).start j idx 2 + ((dims3 N E H wf).window j 2 : Int) = ((0 : Nat) : Int)
      rw [start3_2, window3_2]; omega

/-- SCATTER-ADD THROUGH A TRAILING UNIT AXIS. Scattering the rows of `s : [E, H]` into `x : [N, H]` along axis 0 at
    the indices `idx : [E, 1]`, and scattering the same rows seen as `[E, H, 1]` into the same operand seen as
    `[N, H, 1]`, give the same value at `(n, h)` and `(n, h, 0)`: the update elements landing there correspond
    under `(e, c) ↦ (e, c, 0)`, and both sums add `s e c` over them. -/
theorem hostScatterAdd_unit_axis {N E H w : Nat} (wf2) (wf3) (idx : IVec ⟨2, ![E, 1]⟩ w)
    (x : (⟨2, ![N, H]⟩ : Shape).Idx → EReal) (s : (⟨2, ![E, H]⟩ : Shape).Idx → EReal) (n : Fin N) (h : Fin H) :
    Ideal.hostScatterAdd (dims3 N E H wf3) (fun i => x (ix2 (i 0) (i 1))) idx (fun j => s (ix2 (j 0) (j 1))) (ix3 n h (0 : Fin 1))
      = Ideal.hostScatterAdd (dims2 N E H wf2) x idx s (ix2 n h) := by
  unfold Ideal.hostScatterAdd
  show x (ix2 n h) + _ = x (ix2 n h) + _
  congr 1
  refine Finset.sum_nbij' (fun j3 => ix2 (j3 0) (j3 1)) (fun j2 => ix3 (j2 0) (j2 1) (0 : Fin 1)) ?_ ?_ ?_ ?_ ?_
  · intro j3 hj3
    rw [Finset.mem_filter] at hj3 ⊢
    exact ⟨Finset.mem_univ _, (res2_iff wf2 idx _ n h).mpr ((res3_iff wf3 idx j3 n h).mp hj3.2)⟩
  · intro j2 hj2
    rw [Finset.mem_filter] at hj2 ⊢
    exact ⟨Finset.mem_univ _, (res3_iff wf3 idx _ n h).mpr ((res2_iff wf2 idx j2 n h).mp hj2.2)⟩
  · intro j3 _
    funext a
    match a with
    | ⟨0, _⟩ => rfl
    | ⟨1, _⟩ => rfl
    | ⟨2, _⟩ =>
      have hlt : (j3 2).val < 1 := (j3 2).isLt
      exact Fin.ext (show (0 : Nat) = (j3 2).val by omega)
  · intro j2 _
    funext a
    match a with
    | ⟨0, _⟩ => rfl
    | ⟨1, _⟩ => rfl
  · intro j3 _
    rfl

/-- The same with the rank-3 operand and updates given as arbitrary functions that agree with the rank-2 ones
    entry by entry. -/
theorem hostScatterAdd_unit_axis_of_eq {N E H w : Nat} (wf2) (wf3) (idx : IVec ⟨2, ![E, 1]⟩ w)
    (x : (⟨2, ![N, H]⟩ : Shape).Idx → EReal) (s : (⟨2, ![E, H]⟩ : Shape).Idx → EReal)
    (x3 : (⟨3, ![N, H, 1]⟩ : Shape).Idx → EReal) (s3 : (⟨3, ![E, H, 1]⟩ : Shape).Idx → EReal)
    (hx : ∀ i, x3 i = x (ix2 (i 0) (i 1))) (hs : ∀ j, s3 j = s (ix2 (j 0) (j 1))) (n : Fin N) (h : Fin H) :
    Ideal.hostScatterAdd (dims3 N E H wf3) x3 idx s3 (ix3 n h (0 : Fin 1))
      = Ideal.hostScatterAdd (dims2 N E H wf2) x idx s (ix2 n h) := by
  obtain rfl : x3 = fun i => x (ix2 (i 0) (i 1)) := funext hx
  obtain rfl : s3 = fun j => s (ix2 (j 0) (j 1)) := funext hs
  exact hostScatterAdd_unit_axis wf2 wf3 idx x s n h

end Cert.Lib.ScatterUnit
end
-- ==== Proof.EdgeBridge.lean ====
/-
  The two programs compute one function. With every row number of the edge list in `[0, 20000)`:
  the rows the kernel takes are the rows the reference gathers (nothing is filled, and both normalise and clamp the
  same numbers the same way); the arrays of messages and of scores the region leaves are the reference's stages;
  and the lines after the region are the reference's last lines, except that the kernel sums the scores per node in an
  array `[20000, 8]` and then adds a unit axis, where the reference sums them in `[20000, 8, 1]`: the two accumulating
  scatters add the same scores at the same nodes.
-/
import proofs.«423369_j31327491457426_2_alg».proof.Proof.EdgeTake
import proofs.«423369_j31327491457426_2_alg».proof.Proof.EdgeTail
import proofs.«423369_j31327491457426_2_alg».proof.Proof.RefStages
import proofs.«423369_j31327491457426_2_alg».proof.Proof.LibScatterUnit
import Idealize.ShloMosaic.Lib.Pipeline.Value

set_option maxRecDepth 16384

noncomputable section

namespace Cert.Proof.Bridge

open Idealize.ShloMosaic Idealize.ShloMosaic.ValueIdx
open Cert.EdgeSpec (scoreArr msgArr)
open Cert.KernelIdeal.EdgeValue (rowsOf sources dests takeRows startIdx tailOf takeRows_eq startIdx_eq)
open Cert.ReferenceIdeal.Read
open Cert.ReferenceIdeal.RefValue (ref_scores ref_msgs)

variable (x0 x1 x2 : FVec Ideal Cert.KernelIdeal.S1x20000x256 .f32) (x3 : IVec Cert.KernelIdeal.S2x320000 32)

-- the comparisons below match the two programs' terms argument by argument; they must not open the sums over the
-- 320000 edges
attribute [local irreducible] Ideal.hostScatterAdd Host.gather Host.reduce

/-- The rows the kernel takes from a table at a list of in-range numbers are the reference's gather of them. -/
theorem keys_bridge (hs : ∀ e, 0 ≤ (sources x3 e).toInt ∧ (sources x3 e).toInt < 20000) :
    takeRows (rowsOf x1) (sources x3) = val_main_v13 (F := Ideal) x1 x3 := by
  rw [takeRows_eq _ _ hs, ← startIdx_eq _ hs]
  rfl

theorem queries_bridge (hd : ∀ e, 0 ≤ (dests x3 e).toInt ∧ (dests x3 e).toInt < 20000) :
    takeRows (rowsOf x0) (dests x3) = val_main_v20 (F := Ideal) x0 x3 := by
  rw [takeRows_eq _ _ hd, ← startIdx_eq _ hd]
  rfl

theorem values_bridge (hs : ∀ e, 0 ≤ (sources x3 e).toInt ∧ (sources x3 e).toInt < 20000) :
    takeRows (rowsOf x2) (sources x3) = val_main_v34 (F := Ideal) x2 x3 := by
  rw [takeRows_eq _ _ hs, ← startIdx_eq _ hs]
  rfl

set_option maxHeartbeats 1000000 in
/-- THE SUMMED SCORES: summing the scores per node in `[20000, 8]` and adding a unit axis is summing them, kept with
    their unit axis, in `[20000, 8, 1]`. -/
theorem denominators_eq (dst : IVec Cert.KernelIdeal.S320000 32) :
    broadcastInDim Cert.KernelIdeal.S20000x8x1 ![0, 1] Cert.KernelIdeal.Facts₀.bcast_S20000x8_S20000x8x1_0_1
      (Host.scatterAdd (F := Ideal) Cert.KernelIdeal.scatter_S20000x8_S320000x1_S320000x8_1_0_0_1
        (broadcastInDim Cert.KernelIdeal.S20000x8 ![] Cert.KernelIdeal.Facts₀.bcast_S_S20000x8
          (constant (F := Ideal) Cert.KernelIdeal.S_ .f32 0x00000000#32))
        (broadcastInDim Cert.KernelIdeal.S320000x1 ![0] Cert.KernelIdeal.Facts₀.bcast_S320000_S320000x1_0 dst)
        (scoreArr (val_main_v13 (F := Ideal) x1 x3) (val_main_v20 (F := Ideal) x0 x3)))
    = Host.scatterAdd (F := Ideal) Cert.ReferenceIdeal.scatter_S20000x8x1_S320000x1_S320000x8x1_12_0_0_1
        (val_main_v40 (F := Ideal))
        (broadcastInDim Cert.ReferenceIdeal.S320000x1 ![0] Cert.ReferenceIdeal.Facts₀.bcast_S320000_S320000x1_0 dst)
        (val_main_v27 (F := Ideal) x0 x1 x3) := by
  have key := Cert.Lib.ScatterUnit.hostScatterAdd_unit_axis_of_eq (N := 20000) (E := 320000) (H := 8)
    Cert.KernelIdeal.Facts₀.scatter_S20000x8_S320000x1_S320000x8_1_0_0_1_wf
    Cert.ReferenceIdeal.Facts₀.scatter_S20000x8x1_S320000x1_S320000x8x1_12_0_0_1_wf
    (broadcastInDim Cert.KernelIdeal.S320000x1 ![0] Cert.KernelIdeal.Facts₀.bcast_S320000_S320000x1_0 dst)
    (fun _ => Ideal.ofBits .f32 0x00000000#32)
    (scoreArr (val_main_v13 (F := Ideal) x1 x3) (val_main_v20 (F := Ideal) x0 x3))
    (fun _ => Ideal.ofBits .f32 0x00000000#32) (val_main_v27 (F := Ideal) x0 x1 x3)
    (fun _ => rfl) (ref_scores x0 x1 x3)
  funext i
  obtain ⟨n, h, z, rfl⟩ : ∃ (n : Fin 20000) (h : Fin 8) (z : Fin 1), i = ix3 n h z := ⟨i 0, i 1, i 2, eq_ix3 i⟩
  obtain rfl : z = 0 := Subsingleton.elim _ _
  refine (broadcastInDim_apply _ Cert.KernelIdeal.Facts₀.bcast_S20000x8_S20000x8x1_0_1 _ (ix3 n h (0 : Fin 1)) (ix2 n h) (fun a => by
    match a with
    | ⟨0, _⟩ => show n.val = if (20000 : Nat) = 1 then 0 else n.val; rw [if_neg (by decide)]
    | ⟨1, _⟩ => show h.val = if (8 : Nat) = 1 then 0 else h.val; rw [if_neg (by decide)])).trans ?_
  -- both programs' scatters are the ideal instance's accumulating scatter at these dimension numbers, from zero
  have hK : Host.scatterAdd (F := Ideal) Cert.KernelIdeal.scatter_S20000x8_S320000x1_S320000x8_1_0_0_1
        (broadcastInDim Cert.KernelIdeal.S20000x8 ![] Cert.KernelIdeal.Facts₀.bcast_S_S20000x8
          (constant (F := Ideal) Cert.KernelIdeal.S_ .f32 0x00000000#32))
        (broadcastInDim Cert.KernelIdeal.S320000x1 ![0] Cert.KernelIdeal.Facts₀.bcast_S320000_S320000x1_0 dst)
        (scoreArr (val_main_v13 (F := Ideal) x1 x3) (val_main_v20 (F := Ideal) x0 x3))
      = Ideal.hostScatterAdd (Cert.Lib.ScatterUnit.dims2 20000 320000 8 Cert.KernelIdeal.Facts₀.scatter_S20000x8_S320000x1_S320000x8_1_0_0_1_wf)
        (fun _ => Ideal.ofBits .f32 0x00000000#32)
        (broadcastInDim Cert.KernelIdeal.S320000x1 ![0] Cert.KernelIdeal.Facts₀.bcast_S320000_S320000x1_0 dst)
        (scoreArr (val_main_v13 (F := Ideal) x1 x3) (val_main_v20 (F := Ideal) x0 x3)) := rfl
  have hR : Host.scatterAdd (F := Ideal) (φ := .f32) Cert.ReferenceIdeal.scatter_S20000x8x1_S320000x1_S320000x8x1_12_0_0_1
        (val_main_v40 (F := Ideal))
        (broadcastInDim Cert.ReferenceIdeal.S320000x1 ![0] Cert.ReferenceIdeal.Facts₀.bcast_S320000_S320000x1_0 dst)
        (val_main_v27 (F := Ideal) x0 x1 x3)
      = Ideal.hostScatterAdd (Cert.Lib.ScatterUnit.dims3 20000 320000 8 Cert.ReferenceIdeal.Facts₀.scatter_S20000x8x1_S320000x1_S320000x8x1_12_0_0_1_wf)
        (fun _ => Ideal.ofBits .f32 0x00000000#32)
        (broadcastInDim Cert.KernelIdeal.S320000x1 ![0] Cert.KernelIdeal.Facts₀.bcast_S320000_S320000x1_0 dst)
        (val_main_v27 (F := Ideal) x0 x1 x3) := rfl
  exact (congrFun hK (ix2 n h)).trans ((key n h).symm.trans (congrFun hR (ix3 n h (0 : Fin 1))).symm)

/-- THE LAST LINES: the kernel's lines after the region, applied to the reference's arrays of messages and scores, give
    the reference's result. -/
theorem tail_eq :
    tailOf (dests x3) (msgArr (val_main_v13 (F := Ideal) x1 x3) (val_main_v20 (F := Ideal) x0 x3) (val_main_v34 (F := Ideal) x2 x3))
        (scoreArr (val_main_v13 (F := Ideal) x1 x3) (val_main_v20 (F := Ideal) x0 x3))
      = val_main_v47 (F := Ideal) x0 x1 x2 x3 := by
  unfold tailOf
  rw [denominators_eq x0 x1 x3, ← ref_msgs x0 x1 x2 x3]
  rfl

end Cert.Proof.Bridge

end
-- ==== Proof.PreRange.lean ====
/-
  THE PRECONDITION'S INTEGER PART, READ BACK.

  The precondition is a conjunction of five universally quantified tests joined by bitwise "and" on one-bit words:
  three say that every entry of a float input is finite, the fourth that every entry of the integer input
  `edge_index` is ≥ 0 (signed), the fifth that every entry is < 20000 (signed). Each "for all entries" is a
  reduction of a one-bit array by "and", starting from 1, over all of its axes.

  If the whole conjunction is 1 then each conjunct is 1 (a one-bit "and" is 1 only when both sides are); a
  reduction by "and" that came out 1 met only 1s, so the compared bit is 1 at every index; and a signed comparison
  bit that is 1 says the signed values of the two words are so ordered. The right-hand words are the constants 0 and
  20000 broadcast from a scalar, whose signed values are 0 and 20000. Hence every entry x of `edge_index` has
  0 ≤ x < 20000 as a signed integer. The float conjuncts are not used.
-/
import proofs.«423369_j31327491457426_2_alg».proof.Pre_finite_inputs
import Idealize.ShloMosaic.Lib.ReduceAll
import Idealize.ShloMosaic.Lib.ValueIdx

noncomputable section

namespace Cert.PreRange

open Idealize.ShloMosaic

/-- The rank-0 shape has exactly one index (the empty tuple). -/
instance subsingleton_scalar_idx : Subsingleton Cert.Pre_finite_inputs.S_.Idx :=
  ⟨fun a b => funext fun d => d.elim0⟩

/-- Under the precondition every entry of the edge list is a valid row number: as a signed 32-bit integer it lies in
    [0, 20000). -/
theorem edge_range [Cert.Pre_finite_inputs.Facts] {F : FTy → Type} [FloatOps F]
    (a0 a1 a2 : FVec F Cert.Pre_finite_inputs.S1x20000x256 .f32) (a3 : IVec Cert.Pre_finite_inputs.S2x320000 32)
    (h : Cert.Pre_finite_inputs.fn (F := F) a0 a1 a2 a3 = fun _ => 1#1) :
    ∀ i : Cert.Pre_finite_inputs.S2x320000.Idx, 0 ≤ (a3 i).toInt ∧ (a3 i).toInt < 20000 := by
  intro i
  -- the predicate's one output bit, with its chain of operations in view
  have h0 := congrFun h ValueIdx.ix0
  dsimp only [Cert.Pre_finite_inputs.fn, Cert.Pre_finite_inputs.fn_part1] at h0
  -- the outer two "and"s, read at the one index: ((floats ∧ all (x ≥ 0)) ∧ all (x < 20000)) = 1
  change IntOp.andi (IntOp.andi _ _) _ = 1#1 at h0
  obtain ⟨h1, hlt⟩ := IntOp.andi_eq_one.1 h0
  obtain ⟨_, hge⟩ := IntOp.andi_eq_one.1 h1
  -- a reduction by "and" over all axes that is 1 had a 1 at every index, in particular at i
  have e1 := Host.reduce_andi_all _ _ _ _ _ hge i
  have e2 := Host.reduce_andi_all _ _ _ _ _ hlt i
  -- at index i the compared words are the entry and the broadcast scalar constant
  change IntOp.cmpi .sge (a3 i) 0#32 = 1#1 at e1
  change IntOp.cmpi .slt (a3 i) 20000#32 = 1#1 at e2
  -- a signed comparison bit that is 1 orders the signed values
  have g1 : (0#32 : BitVec 32).toInt ≤ (a3 i).toInt := IntOp.cmpi_sge.1 e1
  have g2 : (a3 i).toInt < (20000#32 : BitVec 32).toInt := IntOp.cmpi_slt.1 e2
  have c0 : (0#32 : BitVec 32).toInt = 0 := by decide
  have c1 : (20000#32 : BitVec 32).toInt = 20000 := by decide
  rw [c0] at g1
  rw [c1] at g2
  exact ⟨g1, g2⟩

end Cert.PreRange

end
-- ==== Proof.lean ====
/-
  Edge-indexed attention: the kernel against its reference, on the extended reals.

  Both programs split three tables `q, k, v : [1, 20000, 256]` into 20000 rows of 8 heads of 32 lanes and read an edge
  list `[2, 320000]` of (source, destination) row numbers. For edge `e` and head `h` the score is
  `s[e,h] = exp (clip ((∑ d, k[src e, h, d] · q[dst e, h, d]) / D, −5, 5))`, the message `v[src e, h, d] · s[e,h]`; messages and
  scores are summed over the edges that end at each node, and the result is the summed message divided by the summed
  score plus a small constant, reshaped to `[1, 20000, 256]`.

  The kernel differs from the reference in four places, none of which changes the value:
  * it multiplies the dot product by a constant where the reference divides by `D`, the single-precision word nearest
    to the square root of 32; the constant is named to be `1 / D = 2097152 / 11863283`, and on the extended reals the
    quotient by a nonzero real is the product with its reciprocal (no finiteness of the inputs is used);
  * it takes rows with a fill value for numbers outside `[0, 20000)` where the reference's gather clamps; under the
    precondition every number of the edge list is in that range, so nothing is filled and both read the same rows;
  * it computes scores and messages block by block, 1000 edges at each of 320 grid points; the blocks tile the two
    output arrays and each block is the whole-array function of the gathered rows read through the block;
  * it sums the scores per node in `[20000, 8]` and adds a unit axis afterwards, where the reference carries the unit
    axis through the sum.
  The three frames are the generated ones (the reference's is its run with the result dropped); the one ledger entry
  is the naming of the constant.
-/
import proofs.«423369_j31327491457426_2_alg».proof.Defs
import proofs.«423369_j31327491457426_2_alg».proof.Proof.Gen.Kernel
import proofs.«423369_j31327491457426_2_alg».proof.Proof.Gen.Kernel.Skeleton
import proofs.«423369_j31327491457426_2_alg».proof.Proof.Gen.Kernel.Launch
import proofs.«423369_j31327491457426_2_alg».proof.Proof.Gen.Kernel.Points
import proofs.«423369_j31327491457426_2_alg».proof.Proof.Gen.Kernel.Frame
import proofs.«423369_j31327491457426_2_alg».proof.Proof.Gen.KernelIdeal
import proofs.«423369_j31327491457426_2_alg».proof.Proof.Gen.KernelIdeal.Skeleton
import proofs.«423369_j31327491457426_2_alg».proof.Proof.Gen.KernelIdeal.Launch
import proofs.«423369_j31327491457426_2_alg».proof.Proof.Gen.KernelIdeal.Points
import proofs.«423369_j31327491457426_2_alg».proof.Proof.Gen.KernelIdeal.Frame
import proofs.«423369_j31327491457426_2_alg».proof.Proof.Gen.ReferenceIdeal
import proofs.«423369_j31327491457426_2_alg».proof.Proof.Gen.Pre_finite_inputs
import proofs.«423369_j31327491457426_2_alg».proof.Proof.Gen.ReferenceIdeal.Run
import proofs.«423369_j31327491457426_2_alg».proof.Proof.Gen.ReferenceIdeal.Read
import proofs.«423369_j31327491457426_2_alg».proof.Proof.EdgePrefix
import proofs.«423369_j31327491457426_2_alg».proof.Proof.EdgeBridge
import proofs.«423369_j31327491457426_2_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.EdgeValue (sources dests result_eq dests_eq keys_eq queries_eq values_eq)
open Cert.Proof.Bridge (keys_bridge queries_bridge values_bridge tail_eq)

/-- THE KERNEL'S RESULT under the precondition: the reference's function of the argument arrays. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    (Pipeline.afterTail₀ Cert.KernelIdeal.cfgs (Cert.KernelIdeal.Gen.dats m) 0 (Cert.KernelIdeal.Gen.V0 m)
        [Cert.KernelIdeal.Gen.hostOps1] c Cert.KernelIdeal.main_v22 : FVec Ideal Cert.KernelIdeal.S1x20000x256 .f32)
      = Cert.ReferenceIdeal.Read.val_main_v47 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  have hr := Cert.PreRange.edge_range _ _ _ _ (hpre c)
  have hs : ∀ e, 0 ≤ (sources (m ((c.tc : Thread Cert.KernelIdeal.nD Cert.KernelIdeal.τ).loc Cert.KernelIdeal.main_arg3)) e).toInt
      ∧ (sources (m ((c.tc : Thread Cert.KernelIdeal.nD Cert.KernelIdeal.τ).loc Cert.KernelIdeal.main_arg3)) e).toInt < 20000 :=
    fun e => hr _
  have hd : ∀ e, 0 ≤ (dests (m ((c.tc : Thread Cert.KernelIdeal.nD Cert.KernelIdeal.τ).loc Cert.KernelIdeal.main_arg3)) e).toInt
      ∧ (dests (m ((c.tc : Thread Cert.KernelIdeal.nD Cert.KernelIdeal.τ).loc Cert.KernelIdeal.main_arg3)) e).toInt < 20000 :=
    fun e => hr _
  rw [result_eq, dests_eq, keys_eq, queries_eq, values_eq, keys_bridge _ _ hs, queries_bridge _ _ hd, values_bridge _ _ hs]
  exact tail_eq _ _ _ _

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: the table gives the scale constant the value `2097152 / 11863283`. -/
theorem preserves : Cert.preserves_Kernel_KernelIdeal :=
  IdealRules.named_const.statement Cert.KernelIdeal.κ "inv_scale" .f32 0x3E3504F3#32 ((2097152 / 11863283 : ℝ) : EReal) rfl

/-- Both programs end at the reference's function of the (agreeing) argument arrays. -/
theorem algebraic : Cert.algebraic_KernelIdeal_ReferenceIdeal := by
  intro m ρ m' ρ' hpre hagree
  refine ⟨fun c => Cert.ReferenceIdeal.Read.val_main_v47 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Gen.run_main m ρ)
    · exact ((h c).2 Cert.KernelIdeal.main_v22 (Pipeline.mem_restRefs_of Cert.KernelIdeal.main_v22 (by decide) (by decide))).trans
        (kernel_value m hpre c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
